-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1x40 : Shape := ⟨3, ![131072, 1, 40]⟩
abbrev S1x131072x256 : Shape := ⟨3, ![1, 131072, 256]⟩
abbrev S128x40 : Shape := ⟨2, ![128, 40]⟩
abbrev S128 : Shape := ⟨1, ![128]⟩
abbrev S768x128 : Shape := ⟨2, ![768, 128]⟩
abbrev S768x256 : Shape := ⟨2, ![768, 256]⟩
abbrev S768 : Shape := ⟨1, ![768]⟩
abbrev S1x256 : Shape := ⟨2, ![1, 256]⟩
abbrev S1 : Shape := ⟨1, ![1]⟩
abbrev S_ : Shape := ⟨0, ![]⟩

class Facts : Prop where
  bcast_S_S131072x1x40 : S_.BroadcastsInDim S131072x1x40 (![] : Fin 0 → Fin S131072x1x40.rank)
  reducesTo_S131072x1x40_S_d0_1_2 : S131072x1x40.ReducesTo [0, 1, 2] S_
  h_S_ : 0 < S_.numel
  bcast_S_S1x131072x256 : S_.BroadcastsInDim S1x131072x256 (![] : Fin 0 → Fin S1x131072x256.rank)
  reducesTo_S1x131072x256_S_d0_1_2 : S1x131072x256.ReducesTo [0, 1, 2] S_
  bcast_S_S128x40 : S_.BroadcastsInDim S128x40 (![] : Fin 0 → Fin S128x40.rank)
  reducesTo_S128x40_S_d0_1 : S128x40.ReducesTo [0, 1] S_
  bcast_S_S128 : S_.BroadcastsInDim S128 (![] : Fin 0 → Fin S128.rank)
  reducesTo_S128_S_d0 : S128.ReducesTo [0] S_
  bcast_S_S768x128 : S_.BroadcastsInDim S768x128 (![] : Fin 0 → Fin S768x128.rank)
  reducesTo_S768x128_S_d0_1 : S768x128.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S768 .f32) (main_arg8 : FVec F S1x256 .f32) (main_arg9 : FVec F S1 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S1x256 .f32 := Host.absf main_arg8
  let main_cst_14 : FVec F S_ .f32 := constant S_ .f32 0x7F800000#32
  let main_v40 : FVec F S1x256 .f32 := broadcastInDim S1x256 ![] bcast_S_S1x256 main_cst_14
  let main_v41 : IVec S1x256 1 := cmpf .olt main_v39 main_v40
  let main_c_15 : IVec S_ 1 := constantI S_ 1 1#1
  let main_v42 : IVec S_ 1 := (fun x v => Host.reduce IntOp.andi x v reducesTo_S1x256_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S768x128 .f32) (main_arg5 : FVec F S768x256 .f32) (main_arg6 : FVec F S768 .f32) (main_arg7 : FVec F S768 .f32) (main_arg8 : FVec F S1x256 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S768x128 .f32 := Host.absf main_arg4
  let main_cst_6 : FVec F S_ .f32 := constant S_ .f32 0x7F800000#32
  let main_v20 : FVec F S768x128 .f32 := broadcastInDim S768x128 ![] bcast_S_S768x128 main_cst_6
  let main_v21 : IVec S768x128 1 := cmpf .olt main_v19 main_v20
  let main_c_7 : IVec S_ 1 := constantI S_ 1 1#1
  let main_v22 : IVec S_ 1 := (fun x v => Host.reduce IntOp.andi x v reducesTo_S768x128_S_d0_1 h_S_) main_v21 main_c_7
  let main_v23 : IVec S_ 1 := andi main_v18 main_v22
  let main_v24 : FVec F S768x256 .f32 := Host.absf main_arg5
  let main_cst_8 : FVec F S_ .f32 := constant S_ .f32 0x7F800000#32
  let main_v25 : FVec F S768x256 .f32 := broadcastInDim S768x256 ![] bcast_S_S768x256 main_cst_8
  let main_v26 : IVec S768x256 1 := cmpf .olt main_v24 main_v25
  let main_c_9 : IVec S_ 1 := constantI S_ 1 1#1
  let main_v27 : IVec S_ 1 := (fun x v => Host.reduce IntOp.andi x v reducesTo_S768x256_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_arg9 main_v33

def fn {F : FTy → Type} [FloatOps F] (main_arg0 : FVec F S131072x1x40 .f32) (main_arg1 : FVec F S1x131072x256 .f32) (main_arg2 : FVec F S128x40 .f32) (main_arg3 : FVec F S128 .f32) (main_arg4 : FVec F S768x128 .f32) (main_arg5 : FVec F S768x256 .f32) (main_arg6 : FVec F S768 .f32) (main_arg7 : FVec F S768 .f32) (main_arg8 : FVec F S1x256 .f32) (main_arg9 : FVec F S1 .f32) : IVec S_ 1 :=
  let main_v0 : FVec F S131072x1x40 .f32 := Host.absf main_arg0
  let main_cst : FVec F S_ .f32 := constant S_ .f32 0x7F800000#32
  let main_v1 : FVec F S131072x1x40 .f32 := broadcastInDim S131072x1x40 ![] bcast_S_S131072x1x40 main_cst
  let main_v2 : IVec S131072x1x40 1 := cmpf .olt main_v0 main_v1
  let main_c : IVec S_ 1 := constantI S_ 1 1#1
  let main_v3 : IVec S_ 1 := (fun x v => Host.reduce IntOp.andi x v reducesTo_S131072x1x40_S_d0_1_2 h_S_) main_v2 main_c
  let main_v4 : FVec F S1x131072x256 .f32 := Host.absf main_arg1
  let main_cst_0 : FVec F S_ .f32 := constant S_ .f32 0x7F800000#32
  let main_v5 : FVec F S1x131072x256 .f32 := broadcastInDim S1x131072x256 ![] bcast_S_S1x131072x256 main_cst_0
  let main_v6 : IVec S1x131072x256 1 := cmpf .olt main_v4 main_v5
  let main_c_1 : IVec S_ 1 := constantI S_ 1 1#1
  let main_v7 : IVec S_ 1 := (fun x v => Host.reduce IntOp.andi x v reducesTo_S1x131072x256_S_d0_1_2 h_S_) main_v6 main_c_1
  let main_v8 : IVec S_ 1 := andi main_v3 main_v7
  let main_v9 : FVec F S128x40 .f32 := Host.absf main_arg2
  let main_cst_2 : FVec F S_ .f32 := constant S_ .f32 0x7F800000#32
  let main_v10 : FVec F S128x40 .f32 := broadcastInDim S128x40 ![] bcast_S_S128x40 main_cst_2
  let main_v11 : IVec S128x40 1 := cmpf .olt main_v9 main_v10
  let main_c_3 : IVec S_ 1 := constantI S_ 1 1#1
  let main_v12 : IVec S_ 1 := (fun x v => Host.reduce IntOp.andi x v reducesTo_S128x40_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S131072x1x40 : Shape := ⟨3, ![131072, 1, 40]⟩
abbrev S1x131072x256 : Shape := ⟨3, ![1, 131072, 256]⟩
abbrev S128x40 : Shape := ⟨2, ![128, 40]⟩
abbrev S128 : Shape := ⟨1, ![128]⟩
abbrev S768x128 : Shape := ⟨2, ![768, 128]⟩
abbrev S768x256 : Shape := ⟨2, ![768, 256]⟩
abbrev S768 : Shape := ⟨1, ![768]⟩
abbrev S1x256 : Shape := ⟨2, ![1, 256]⟩
abbrev S1 : Shape := ⟨1, ![1]⟩
abbrev S131072x40 : Shape := ⟨2, ![131072, 40]⟩
abbrev S131072x256 : Shape := ⟨2, ![131072, 256]⟩
abbrev S40x128 : Shape := ⟨2, ![40, 128]⟩
abbrev S1x128 : Shape := ⟨2, ![1, 128]⟩
abbrev S128x768 : Shape := ⟨2, ![128, 768]⟩
abbrev S1x768 : Shape := ⟨2, ![1, 768]⟩
abbrev S256x768 : Shape := ⟨2, ![256, 768]⟩
abbrev S256x1 : Shape := ⟨2, ![256, 1]⟩
abbrev S1x1 : Shape := ⟨2, ![1, 1]⟩
abbrev S131072x1 : Shape := ⟨2, ![131072, 1]⟩
abbrev S1024x40 : Shape := ⟨2, ![1024, 40]⟩
abbrev S1024x256 : Shape := ⟨2, ![1024, 256]⟩
abbrev S1024x1 : Shape := ⟨2, ![1024, 1]⟩
abbrev S1024x128 : Shape := ⟨2, ![1024, 128]⟩
abbrev S1024x768 : Shape := ⟨2, ![1024, 768]⟩
abbrev S131072x1x1 : Shape := ⟨3, ![131072, 1, 1]⟩

abbrev nBuf : Space → Nat
  | .hbm => 24
  | .vmem => 16
  | .smem => 0
  | _ => 0

abbrev bufTy : (tb : Table) → Fin (tcTables nBuf tb) → BufTy
  | .hbm, ⟨0, _⟩ => ⟨S131072x1x40, .f32⟩
  | .hbm, ⟨1, _⟩ => ⟨S1x131072x256, .f32⟩
  | .hbm, ⟨2, _⟩ => ⟨S128x40, .f32⟩
  | .hbm, ⟨3, _⟩ => ⟨S128, .f32⟩
  | .hbm, ⟨4, _⟩ => ⟨S768x128, .f32⟩
  | .hbm, ⟨5, _⟩ => ⟨S768x256, .f32⟩
  | .hbm, ⟨6, _⟩ => ⟨S768, .f32⟩
  | .hbm, ⟨7, _⟩ => ⟨S768, .f32⟩
  | .hbm, ⟨8, _⟩ => ⟨S1x256, .f32⟩
  | .hbm, ⟨9, _⟩ => ⟨S1, .f32⟩
  | .hbm, ⟨10, _⟩ => ⟨S131072x40, .f32⟩
  | .hbm, ⟨11, _⟩ => ⟨S131072x256, .f32⟩
  | .hbm, ⟨12, _⟩ => ⟨S40x128, .f32⟩
  | .hbm, ⟨13, _⟩ => ⟨S1x128, .f32⟩
  | .hbm, ⟨14, _⟩ => ⟨S128x768, .f32⟩
  | .hbm, ⟨15, _⟩ => ⟨S1x768, .f32⟩
  | .hbm, ⟨16, _⟩ => ⟨S256x768, .f32⟩
  | .hbm, ⟨17, _⟩ => ⟨S1x768, .f32⟩
  | .hbm, ⟨18, _⟩ => ⟨S256x1, .f32⟩
  | .hbm, ⟨19, _⟩ => ⟨S1x1, .f32⟩
  | .hbm, ⟨20, _⟩ => ⟨S131072x1, .f32⟩
  | .hbm, ⟨21, _⟩ => ⟨S131072x256, .f32⟩
  | .hbm, ⟨22, _⟩ => ⟨S131072x1x1, .f32⟩
  | .hbm, ⟨23, _⟩ => ⟨S1x131072x256, .f32⟩
  | .local _ .vmem, ⟨0, _⟩ => ⟨S1024x40, .f32⟩
  | .local _ .vmem, ⟨1, _⟩ => ⟨S1024x40, .f32⟩
  | .local _ .vmem, ⟨2, _⟩ => ⟨S1024x256, .f32⟩
  | .local _ .vmem, ⟨3, _⟩ => ⟨S1024x256, .f32⟩
  | .local _ .vmem, ⟨4, _⟩ => ⟨S40x128, .f32⟩
  | .local _ .vmem, ⟨5, _⟩ => ⟨S1x128, .f32⟩
  | .local _ .vmem, ⟨6, _⟩ => ⟨S128x768, .f32⟩
  | .local _ .vmem, ⟨7, _⟩ => ⟨S1x768, .f32⟩
  | .local _ .vmem, ⟨8, _⟩ => ⟨S256x768, .f32⟩
  | .local _ .vmem, ⟨9, _⟩ => ⟨S1x768, .f32⟩
  | .local _ .vmem, ⟨10, _⟩ => ⟨S256x1, .f32⟩
  | .local _ .vmem, ⟨11, _⟩ => ⟨S1x1, .f32⟩
  | .local _ .vmem, ⟨12, _⟩ => ⟨S1024x1, .f32⟩
  | .local _ .vmem, ⟨13, _⟩ => ⟨S1024x1, .f32⟩
  | .local _ .vmem, ⟨14, _⟩ => ⟨S1024x256, .f32⟩
  | .local _ .vmem, ⟨15, _⟩ => ⟨S1024x256, .f32⟩
  | _, _ => ⟨S131072x1x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S40x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S131072x1x40_S131072x40 : S131072x1x40.ShapeCasts S131072x40
  shapeCasts_S1x131072x256_S131072x256 : S1x131072x256.ShapeCasts S131072x256
  transposes_S128x40_S40x128_1_0 : S128x40.Transposes [1, 0] S40x128
  shapeCasts_S128_S1x128 : S128.ShapeCasts S1x128
  transposes_S768x128_S128x768_1_0 : S768x128.Transposes [1, 0] S128x768
  shapeCasts_S768_S1x768 : S768.ShapeCasts S1x768
  transposes_S768x256_S256x768_1_0 : S768x256.Transposes [1, 0] S256x768
  transposes_S1x256_S256x1_1_0 : S1x256.Transposes [1, 0] S256x1
  shapeCasts_S1_S1x1 : S1.ShapeCasts S1x1
  inb_S1024x40_S1024x40_0_0 : ∀ a, (![0, 0] : Fin 2 → Nat) a + S1024x40.size a ≤ S1024x40.size a
  h_S1024x40 : 0 < S1024x40.numel
  shapeCasts_S1024x40_S1024x40 : S1024x40.ShapeCasts S1024x40
  bitsLt_bf16_f32 : FTy.bits .bf16 < FTy.bits .f32
  inb_S40x128_S40x128_0_0 : ∀ a, (![0, 0] : Fin 2 → Nat) a + S40x128.size a ≤ S40x128.size a
  h_S40x128 : 0 < S40x128.numel
  shapeCasts_S40x128_S40x128 : S40x128.ShapeCasts S40x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  bcast_S131072x1_S131072x1x1_0_2 : S131072x1.BroadcastsInDim S131072x1x1 (![0, 2] : Fin 2 → Fin S131072x1x1.rank)
  bcast_S131072x256_S1x131072x256_1_2 : S131072x256.BroadcastsInDim S1x131072x256 (![1, 2] : Fin 2 → Fin S1x131072x256.rank)
  dot_S1024x40_S40x128_S1024x128_1_0_0_1_n_n_wf : DotDims.WF S1024x40 S40x128 S1024x128 [1] [0] [0] [1] [] []
  dot_S1024x128_S128x768_S1024x768_1_0_0_1_n_n_wf : DotDims.WF S1024x128 S128x768 S1024x768 [1] [0] [0] [1] [] []
  dot_S1024x256_S256x768_S1024x768_1_0_0_1_n_n_wf : DotDims.WF S1024x256 S256x768 S1024x768 [1] [0] [0] [1] [] []
  dot_S1024x256_S256x1_S1024x1_1_0_0_1_n_n_wf : DotDims.WF S1024x256 S256x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x40.size a ≤ S131072x40.size a
  hwx0_0 : ∀ i : grid0.Coords, EltTy.bits .f32 = 32 ∨ (Rect.block (s := S131072x40) S1024x40.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S131072x256.size a
  hwx0_1 : ∀ i : grid0.Coords, EltTy.bits .f32 = 32 ∨ (Rect.block (s := S131072x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40x128.size a ≤ S40x128.size a
  hwx0_2 : ∀ i : grid0.Coords, EltTy.bits .f32 = 32 ∨ (Rect.block (s := S40x128) S40x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x768.size a ≤ S128x768.size a
  hwx0_4 : ∀ i : grid0.Coords, EltTy.bits .f32 = 32 ∨ (Rect.block (s := S128x768) S128x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x768.size a ≤ S256x768.size a
  hwx0_6 : ∀ i : grid0.Coords, EltTy.bits .f32 = 32 ∨ (Rect.block (s := S256x768) S256x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S256x1.size a
  hwx0_8 : ∀ i : grid0.Coords, EltTy.bits .f32 = 32 ∨ (Rect.block (s := S256x1) S256x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x1.size a ≤ S131072x1.size a
  hwx0_10 : ∀ i : grid0.Coords, EltTy.bits .f32 = 32 ∨ (Rect.block (s := S131072x1) S1024x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x256.size a ≤ S131072x256.size a
  hwx0_11 : ∀ i : grid0.Coords, EltTy.bits .f32 = 32 ∨ (Rect.block (s := S131072x256) S1024x256.size (cc0_transform_11 i) (hinb0_11 i)).WholeWords (EltTy.packing .f32)

variable [Facts₀]

def dot_S1024x40_S40x128_S1024x128_1_0_0_1_n_n : DotDims S1024x40 S40x128 S1024x128 where
  lhsContracting := [1]
  rhsContracting := [0]
  lhsNonContracting := [0]
  rhsNonContracting := [1]
  lhsBatch := []
  rhsBatch := []
  wf := dot_S1024x40_S40x128_S1024x128_1_0_0_1_n_n_wf
def dot_S1024x128_S128x768_S1024x768_1_0_0_1_n_n : DotDims S1024x128 S128x768 S1024x768 where
  lhsContracting := [1]
  rhsContracting := [0]
  lhsNonContracting := [0]
  rhsNonContracting := [1]
  lhsBatch := []
  rhsBatch := []
  wf := dot_S1024x128_S128x768_S1024x768_1_0_0_1_n_n_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.ofSpec (Memref.whole main_v0) S1024x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S40x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S256x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10_0) S1024x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10_1) S1024x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S131072x1x40 : Shape := ⟨3, ![131072, 1, 40]⟩
abbrev S1x131072x256 : Shape := ⟨3, ![1, 131072, 256]⟩
abbrev S128x40 : Shape := ⟨2, ![128, 40]⟩
abbrev S128 : Shape := ⟨1, ![128]⟩
abbrev S768x128 : Shape := ⟨2, ![768, 128]⟩
abbrev S768x256 : Shape := ⟨2, ![768, 256]⟩
abbrev S768 : Shape := ⟨1, ![768]⟩
abbrev S1x256 : Shape := ⟨2, ![1, 256]⟩
abbrev S1 : Shape := ⟨1, ![1]⟩
abbrev S131072x40 : Shape := ⟨2, ![131072, 40]⟩
abbrev S131072x128 : Shape := ⟨2, ![131072, 128]⟩
abbrev S1x128 : Shape := ⟨2, ![1, 128]⟩
abbrev S131072x256 : Shape := ⟨2, ![131072, 256]⟩
abbrev S131072x768 : Shape := ⟨2, ![131072, 768]⟩
abbrev S1x768 : Shape := ⟨2, ![1, 768]⟩
abbrev S_ : Shape := ⟨0, ![]⟩
abbrev S131072x1 : Shape := ⟨2, ![131072, 1]⟩
abbrev S1x1 : Shape := ⟨2, ![1, 1]⟩
abbrev S131072x1x1 : Shape := ⟨3, ![131072, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S131072x1x40, .f32⟩
  | .hbm, ⟨1, _⟩ => ⟨S1x131072x256, .f32⟩
  | .hbm, ⟨2, _⟩ => ⟨S128x40, .f32⟩
  | .hbm, ⟨3, _⟩ => ⟨S128, .f32⟩
  | .hbm, ⟨4, _⟩ => ⟨S768x128, .f32⟩
  | .hbm, ⟨5, _⟩ => ⟨S768x256, .f32⟩
  | .hbm, ⟨6, _⟩ => ⟨S768, .f32⟩
  | .hbm, ⟨7, _⟩ => ⟨S768, .f32⟩
  | .hbm, ⟨8, _⟩ => ⟨S1x256, .f32⟩
  | .hbm, ⟨9, _⟩ => ⟨S1, .f32⟩
  | .hbm, ⟨10, _⟩ => ⟨S131072x40, .f32⟩
  | .hbm, ⟨11, _⟩ => ⟨S131072x128, .f32⟩
  | .hbm, ⟨12, _⟩ => ⟨S1x128, .f32⟩
  | .hbm, ⟨13, _⟩ => ⟨S131072x128, .f32⟩
  | .hbm, ⟨14, _⟩ => ⟨S131072x128, .f32⟩
  | .hbm, ⟨15, _⟩ => ⟨S131072x256, .f32⟩
  | .hbm, ⟨16, _⟩ => ⟨S131072x768, .f32⟩
  | .hbm, ⟨17, _⟩ => ⟨S1x768, .f32⟩
  | .hbm, ⟨18, _⟩ => ⟨S131072x768, .f32⟩
  | .hbm, ⟨19, _⟩ => ⟨S131072x768, .f32⟩
  | .hbm, ⟨20, _⟩ => ⟨S131072x768, .f32⟩
  | .hbm, ⟨21, _⟩ => ⟨S1x768, .f32⟩
  | .hbm, ⟨22, _⟩ => ⟨S131072x768, .f32⟩
  | .hbm, ⟨23, _⟩ => ⟨S131072x768, .f32⟩
  | .hbm, ⟨24, _⟩ => ⟨S131072x256, .f32⟩
  | .hbm, ⟨25, _⟩ => ⟨S131072x256, .f32⟩
  | .hbm, ⟨26, _⟩ => ⟨S131072x256, .f32⟩
  | .hbm, ⟨27, _⟩ => ⟨S131072x256, .f32⟩
  | .hbm, ⟨28, _⟩ => ⟨S131072x256, .f32⟩
  | .hbm, ⟨29, _⟩ => ⟨S131072x256, .f32⟩
  | .hbm, ⟨30, _⟩ => ⟨S131072x256, .f32⟩
  | .hbm, ⟨31, _⟩ => ⟨S131072x256, .f32⟩
  | .hbm, ⟨32, _⟩ => ⟨S131072x256, .f32⟩
  | .hbm, ⟨33, _⟩ => ⟨S_, .f32⟩
  | .hbm, ⟨34, _⟩ => ⟨S131072x256, .f32⟩
  | .hbm, ⟨35, _⟩ => ⟨S131072x256, .f32⟩
  | .hbm, ⟨36, _⟩ => ⟨S_, .f32⟩
  | .hbm, ⟨37, _⟩ => ⟨S131072x256, .f32⟩
  | .hbm, ⟨38, _⟩ => ⟨S131072x256, .f32⟩
  | .hbm, ⟨39, _⟩ => ⟨S131072x256, .f32⟩
  | .hbm, ⟨40, _⟩ => ⟨S131072x256, .f32⟩
  | .hbm, ⟨41, _⟩ => ⟨S131072x256, .f32⟩
  | .hbm, ⟨42, _⟩ => ⟨S_, .f32⟩
  | .hbm, ⟨43, _⟩ => ⟨S131072x256, .f32⟩
  | .hbm, ⟨44, _⟩ => ⟨S131072x256, .f32⟩
  | .hbm, ⟨45, _⟩ => ⟨S_, .f32⟩
  | .hbm, ⟨46, _⟩ => ⟨S131072x256, .f32⟩
  | .hbm, ⟨47, _⟩ => ⟨S131072x256, .f32⟩
  | .hbm, ⟨48, _⟩ => ⟨S131072x256, .f32⟩
  | .hbm, ⟨49, _⟩ => ⟨S131072x256, .f32⟩
  | .hbm, ⟨50, _⟩ => ⟨S131072x256, .f32⟩
  | .hbm, ⟨51, _⟩ => ⟨S_, .f32⟩
  | .hbm, ⟨52, _⟩ => ⟨S131072x256, .f32⟩
  | .hbm, ⟨53, _⟩ => ⟨S131072x256, .f32⟩
  | .hbm, ⟨54, _⟩ => ⟨S131072x256, .f32⟩
  | .hbm, ⟨55, _⟩ => ⟨S131072x256, .f32⟩
  | .hbm, ⟨56, _⟩ => ⟨S131072x256, .f32⟩
  | .hbm, ⟨57, _⟩ => ⟨S131072x1, .f32⟩
  | .hbm, ⟨58, _⟩ => ⟨S1x1, .f32⟩
  | .hbm, ⟨59, _⟩ => ⟨S131072x1, .f32⟩
  | .hbm, ⟨60, _⟩ => ⟨S131072x1, .f32⟩
  | .hbm, ⟨61, _⟩ => ⟨S131072x1x1, .f32⟩
  | .hbm, ⟨62, _⟩ => ⟨S1x131072x256, .f32⟩
  | _, _ => ⟨S131072x1x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_cst_0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  shapeCasts_S131072x1x40_S131072x40 : S131072x1x40.ShapeCasts S131072x40
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  shapeCasts_S1x131072x256_S131072x256 : S1x131072x256.ShapeCasts S131072x256
  bcast_S768_S1x768_1 : S768.BroadcastsInDim S1x768 (![1] : Fin 1 → Fin S1x768.rank)
  bcast_S1x768_S131072x768_0_1 : S1x768.BroadcastsInDim S131072x768 (![0, 1] : Fin 2 → Fin S131072x768.rank)
  slices_S131072x768_S131072x256_0_0 : S131072x768.Slices ![0, 0] S131072x256
  slices_S131072x768_S131072x256_0_256 : S131072x768.Slices ![0, 256] S131072x256
  slices_S131072x768_S131072x256_0_512 : S131072x768.Slices ![0, 512] S131072x256
  bcast_S_S131072x256 : S_.BroadcastsInDim S131072x256 (![] : Fin 0 → Fin S131072x256.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  bcast_S131072x1_S131072x1x1_0_2 : S131072x1.BroadcastsInDim S131072x1x1 (![0, 2] : Fin 2 → Fin S131072x1x1.rank)
  bcast_S131072x256_S1x131072x256_1_2 : S131072x256.BroadcastsInDim S1x131072x256 (![1, 2] : Fin 2 → Fin S1x131072x256.rank)
  dot_S131072x40_S128x40_S131072x128_1_1_0_0_n_n_wf : DotDims.WF S131072x40 S128x40 S131072x128 [1] [1] [0] [0] [] []
  dot_S131072x128_S768x128_S131072x768_1_1_0_0_n_n_wf : DotDims.WF S131072x128 S768x128 S131072x768 [1] [1] [0] [0] [] []
  dot_S131072x256_S768x256_S131072x768_1_1_0_0_n_n_wf : DotDims.WF S131072x256 S768x256 S131072x768 [1] [1] [0] [0] [] []
  dot_S131072x256_S1x256_S131072x1_1_1_0_0_n_n_wf : DotDims.WF S131072x256 S1x256 S131072x1 [1] [1] [0] [0] [] []

variable [Facts₀]

def dot_S131072x40_S128x40_S131072x128_1_1_0_0_n_n : DotDims S131072x40 S128x40 S131072x128 where
  lhsContracting := [1]
  rhsContracting := [1]
  lhsNonContracting := [0]
  rhsNonContracting := [0]
  lhsBatch := []
  rhsBatch := []
  wf := dot_S131072x40_S128x40_S131072x128_1_1_0_0_n_n_wf
def dot_S131072x128_S768x128_S131072x768_1_1_0_0_n_n : DotDims S131072x128 S768x128 S131072x768 where
  lhsContracting := [1]
  rhsContracting := [1]
  lhsNonContracting := [0]
  rhsNonContracting := [0]
  lhsBatch := []
  rhsBatch := []
  wf := dot_S131072x128_S768x128_S131072x768_1_1_0_0_n_n_wf
def dot_S131072x256_S768x256_S131072x768_1_1_0_0_n_n : DotDims S131072x256 S768x256 S131072x768 where
  lhsContracting := [1]
  rhsContracting := [1]
  lhsNonContracting := [0]
  rhsNonContracting := [0]
  lhsBatch := []
  rhsBatch := []
  wf := dot_S131072x256_S768x256_S131072x768_1_1_0_0_n_n_wf
def dot_S131072x256_S1x256_S131072x1_1_1_0_0_n_n : DotDims S131072x256 S1x256 S131072x1 where
  lhsContracting := [1]
  rhsContracting := [1]
  lhsNonContracting := [0]
  rhsNonContracting := [0]
  lhsBatch := []
  rhsBatch := []
  wf := dot_S131072x256_S1x256_S131072x1_1_1_0_0_n_n_wf

class Facts : Prop extends Facts₀ where

variable [Facts]
-- ==== Proof.Spec.lean ====
/-
  One GRU step with an input projection and a scalar head, row by row, over the extended reals.

  For one batch row with input `x : Fin 40 → EReal` and hidden state `h : Fin 256 → EReal`:
    xp p  = (∑ k, x k · Wp p k) + bp p                      (the projection, 128 wide)
    gi g  = (∑ p, xp p · Wih g p) + bih g                   (the input gates, 768 = 3 · 256 wide)
    gh g  = (∑ k, h k · Whh g k) + bhh g                    (the hidden gates, 768 wide)
    r j   = σ (gi j + gh j)                                  (reset, columns 0 … 255)
    z j   = σ (gi (256 + j) + gh (256 + j))                  (update, columns 256 … 511)
    n j   = tanh (gi (512 + j) + r j · gh (512 + j))         (candidate, columns 512 … 767)
    h' j  = (1 − z j) · n j + z j · h j
    pred  = (∑ j, h' j · Whd j) + bhd
  with σ x = 1 / (1 + e^(−x)). Every sum is a finite sum of extended reals in the order of its index,
  every product and quotient the extended reals' own; nothing is rearranged, so no finiteness is used.
  The whole-array results read each row of the two batch inputs and apply these row functions.
-/
import Idealize.ShloMosaic.PureOps.Ideal
import Idealize.ShloMosaic.PureOps.Ideal.Laws
import Idealize.ShloMosaic.Lib.ValueIdx

noncomputable section

open scoped BigOperators

namespace Cert.Gru

open Idealize.ShloMosaic Idealize.ShloMosaic.ValueIdx

/-- The binary32 word of `1.0`, read as an extended real. -/
abbrev one : EReal := Ideal.ofBits .f32 0x3F800000#32

/-- That word denotes the number one. -/
theorem one_eq : one = 1 := IdealRules.sign_bit.ideal_onePat .f32

/-- A dot product with a bias: `(∑ k, v k · w k) + b`. All four matrix products of the step are of this form. -/
def affine {n : Nat} (v w : Fin n → EReal) (b : EReal) : EReal := (∑ k : Fin n, v k * w k) + b

/-- The logistic function spelt as a quotient: `1 / (1 + e^(−x))`. -/
def sigm (x : EReal) : EReal := Ideal.div one (one + Ideal.exp (-x))

/-- The one-operation logistic is that quotient. -/
theorem logistic_eq (x : EReal) : Ideal.logistic x = sigm x := by
  unfold Ideal.logistic sigm
  rw [one_eq]

/-- Column `j` of the reset third of a gate row. -/
def lo (j : Fin 256) : Fin 768 := ⟨j.val, by have := j.isLt; omega⟩
/-- Column `j` of the update third. -/
def mid (j : Fin 256) : Fin 768 := ⟨j.val + 256, by have := j.isLt; omega⟩
/-- Column `j` of the candidate third. -/
def hi (j : Fin 256) : Fin 768 := ⟨j.val + 512, by have := j.isLt; omega⟩

/-- The gate arithmetic of one row: from the two gate rows and the old state to the new state. -/
def cell (gi gh : Fin 768 → EReal) (h : Fin 256 → EReal) (j : Fin 256) : EReal :=
  (one - sigm (gi (mid j) + gh (mid j))) * Ideal.tanh (gi (hi j) + sigm (gi (lo j) + gh (lo j)) * gh (hi j))
    + sigm (gi (mid j) + gh (mid j)) * h j

/-- The step's parameters, as plain functions of their coordinates. -/
structure Weights where
  Wp : Fin 128 → Fin 40 → EReal
  bp : Fin 128 → EReal
  Wih : Fin 768 → Fin 128 → EReal
  bih : Fin 768 → EReal
  Whh : Fin 768 → Fin 256 → EReal
  bhh : Fin 768 → EReal
  Whd : Fin 256 → EReal
  bhd : EReal

/-- The projected input of one row. -/
def proj (W : Weights) (x : Fin 40 → EReal) (p : Fin 128) : EReal := affine x (W.Wp p) (W.bp p)
/-- The input gates of one row. -/
def gateI (W : Weights) (x : Fin 40 → EReal) (g : Fin 768) : EReal := affine (proj W x) (W.Wih g) (W.bih g)
/-- The hidden gates of one row. -/
def gateH (W : Weights) (h : Fin 256 → EReal) (g : Fin 768) : EReal := affine h (W.Whh g) (W.bhh g)
/-- The new hidden state of one row. -/
def rowH (W : Weights) (x : Fin 40 → EReal) (h : Fin 256 → EReal) (j : Fin 256) : EReal :=
  cell (gateI W x) (gateH W h) h j
/-- The head's prediction for one row. -/
def rowP (W : Weights) (x : Fin 40 → EReal) (h : Fin 256 → EReal) : EReal := affine (rowH W x h) W.Whd W.bhd

/-- The parameters read off the argument arrays in the shapes the entry point takes them:
    `W_proj [128, 40]`, `b_proj [128]`, `W_ih [768, 128]`, `W_hh [768, 256]`, `b_ih [768]`, `b_hh [768]`,
    `W_head [1, 256]`, `b_head [1]`. -/
def weightsOf (wp : (⟨2, ![128, 40]⟩ : Shape).Idx → EReal) (bp : (⟨1, ![128]⟩ : Shape).Idx → EReal)
    (wih : (⟨2, ![768, 128]⟩ : Shape).Idx → EReal) (whh : (⟨2, ![768, 256]⟩ : Shape).Idx → EReal)
    (bih : (⟨1, ![768]⟩ : Shape).Idx → EReal) (bhh : (⟨1, ![768]⟩ : Shape).Idx → EReal)
    (whd : (⟨2, ![1, 256]⟩ : Shape).Idx → EReal) (bhd : (⟨1, ![1]⟩ : Shape).Idx → EReal) : Weights where
  Wp p k := wp (ix2 p k)
  bp p := bp (ix1 p)
  Wih g k := wih (ix2 g k)
  bih g := bih (ix1 g)
  Whh g k := whh (ix2 g k)
  bhh g := bhh (ix1 g)
  Whd k := whd (ix2 (0 : Fin 1) k)
  bhd := bhd (ix1 (0 : Fin 1))

/-- Row `b` of the step input `x_step [131072, 1, 40]`. -/
def xRow (X : (⟨3, ![131072, 1, 40]⟩ : Shape).Idx → EReal) (b : Fin 131072) (k : Fin 40) : EReal := X (ix3 b (0 : Fin 1) k)
/-- Row `b` of the hidden input `hidden_in [1, 131072, 256]`. -/
def hRow (Hin : (⟨3, ![1, 131072, 256]⟩ : Shape).Idx → EReal) (b : Fin 131072) (k : Fin 256) : EReal := Hin (ix3 (0 : Fin 1) b k)

/-- The new hidden state as a `[131072, 256]` array. -/
def hidden2 (W : Weights) (X : (⟨3, ![131072, 1, 40]⟩ : Shape).Idx → EReal) (Hin : (⟨3, ![1, 131072, 256]⟩ : Shape).Idx → EReal) :
    (⟨2, ![131072, 256]⟩ : Shape).Idx → EReal := fun i => rowH W (xRow X (i 0)) (hRow Hin (i 0)) (i 1)
/-- The prediction as a `[131072, 1]` array. -/
def pred2 (W : Weights) (X : (⟨3, ![131072, 1, 40]⟩ : Shape).Idx → EReal) (Hin : (⟨3, ![1, 131072, 256]⟩ : Shape).Idx → EReal) :
    (⟨2, ![131072, 1]⟩ : Shape).Idx → EReal := fun i => rowP W (xRow X (i 0)) (hRow Hin (i 0))

/-- The new hidden state in the shape the entry point returns it, `[1, 131072, 256]`. -/
def hidden3 (W : Weights) (X : (⟨3, ![131072, 1, 40]⟩ : Shape).Idx → EReal) (Hin : (⟨3, ![1, 131072, 256]⟩ : Shape).Idx → EReal) :
    (⟨3, ![1, 131072, 256]⟩ : Shape).Idx → EReal := fun i => rowH W (xRow X (i 1)) (hRow Hin (i 1)) (i 2)
/-- The prediction in the shape the entry point returns it, `[131072, 1, 1]`. -/
def pred3 (W : Weights) (X : (⟨3, ![131072, 1, 40]⟩ : Shape).Idx → EReal) (Hin : (⟨3, ![1, 131072, 256]⟩ : Shape).Idx → EReal) :
    (⟨3, ![131072, 1, 1]⟩ : Shape).Idx → EReal := fun i => rowP W (xRow X (i 0)) (hRow Hin (i 0))

end Cert.Gru

end
-- ==== Proof.RefValue.lean ====
/-
  The reference's two results, read through its stages one operation at a time, are the row functions of
  the GRU step applied to each batch row: the new hidden state `[1, 131072, 256]` and the prediction `[131072, 1, 1]`.
-/
import proofs.«167147_j89644557402351_1_alg».proof.Proof.Gen.ReferenceIdeal.Read
import proofs.«167147_j89644557402351_1_alg».proof.Proof.Spec

noncomputable section

open scoped BigOperators

namespace Cert.ReferenceIdeal.RefValue

open Cert.ReferenceIdeal Cert.ReferenceIdeal.Read Idealize.ShloMosaic Idealize.ShloMosaic.ValueIdx

/-- Two rank-1 indices with the same coordinate are equal. -/
theorem idx1_ext {n0 : Nat} {i j : (⟨1, ![n0]⟩ : Shape).Idx} (h0 : (i 0).val = (j 0).val) : i = j := by
  funext a
  match a with
  | ⟨0, _⟩ => exact Fin.ext h0

/-- Two rank-2 indices with the same coordinates are equal. -/
theorem idx2_ext {n0 n1 : Nat} {i j : (⟨2, ![n0, n1]⟩ : Shape).Idx} (h0 : (i 0).val = (j 0).val)
    (h1 : (i 1).val = (j 1).val) : i = j := by
  funext a
  match a with
  | ⟨0, _⟩ => exact Fin.ext h0
  | ⟨1, _⟩ => exact Fin.ext h1

/-- Two rank-3 indices with the same coordinates are equal. -/
theorem idx3_ext {n0 n1 n2 : Nat} {i j : (⟨3, ![n0, n1, n2]⟩ : Shape).Idx} (h0 : (i 0).val = (j 0).val)
    (h1 : (i 1).val = (j 1).val) (h2 : (i 2).val = (j 2).val) : i = j := by
  funext a
  match a with
  | ⟨0, _⟩ => exact Fin.ext h0
  | ⟨1, _⟩ => exact Fin.ext h1
  | ⟨2, _⟩ => exact Fin.ext h2

variable (x0 : (⟨S131072x1x40, .f32⟩ : BufTy).Contents (Elt Ideal)) (x1 : (⟨S1x131072x256, .f32⟩ : BufTy).Contents (Elt Ideal)) (x2 : (⟨S128x40, .f32⟩ : BufTy).Contents (Elt Ideal)) (x3 : (⟨S128, .f32⟩ : BufTy).Contents (Elt Ideal))
  (x4 : (⟨S768x128, .f32⟩ : BufTy).Contents (Elt Ideal)) (x5 : (⟨S768x256, .f32⟩ : BufTy).Contents (Elt Ideal)) (x6 x7 : (⟨S768, .f32⟩ : BufTy).Contents (Elt Ideal)) (x8 : (⟨S1x256, .f32⟩ : BufTy).Contents (Elt Ideal)) (x9 : (⟨S1, .f32⟩ : BufTy).Contents (Elt Ideal))

/-- The step input with its unit axis dropped, at `(b, k)`, is row `b` of the step input at `k`. -/
theorem v0_eq (i : S131072x40.Idx) : val_main_v0 (F := Ideal) x0 i = Cert.Gru.xRow x0 (i 0) (i 1) := by
  rw [val_main_v0_apply]
  unfold Cert.Gru.xRow
  congr 1
  have h1 : (i 1).val < 40 := (i 1).isLt
  refine idx3_ext ?_ rfl ?_
  · show ((i 0).val * 40 + (i 1).val) / 40 = (i 0).val
    omega
  · show ((i 0).val * 40 + (i 1).val) % 40 = (i 1).val
    omega

/-- The hidden input with its unit axis dropped, at `(b, k)`, is row `b` of the hidden input at `k`. -/
theorem v5_eq (i : S131072x256.Idx) : val_main_v5 (F := Ideal) x1 i = Cert.Gru.hRow x1 (i 0) (i 1) := by
  rw [val_main_v5_apply]
  unfold Cert.Gru.hRow
  congr 1
  have h0 : (i 0).val < 131072 := (i 0).isLt
  have h1 : (i 1).val < 256 := (i 1).isLt
  refine idx3_ext rfl ?_ ?_
  · show ((i 0).val * 256 + (i 1).val) / 256 % 131072 = (i 0).val
    omega
  · show ((i 0).val * 256 + (i 1).val) % 256 = (i 1).val
    omega

/-- The projection stage at `(b, p)` is the projected input of row `b` at `p`. -/
theorem v4_eq (i : S131072x128.Idx) :
    val_main_v4 (F := Ideal) x0 x2 x3 i
      = Cert.Gru.proj (Cert.Gru.weightsOf x2 x3 x4 x5 x6 x7 x8 x9) (Cert.Gru.xRow x0 (i 0)) (i 1) := by
  rw [val_main_v4_apply, Ideal.addf_def, val_main_v1_apply, val_main_v3_apply, val_main_v2_apply]
  unfold Cert.Gru.proj Cert.Gru.affine
  congr 1
  · refine Finset.sum_congr rfl fun k _ => ?_
    rw [v0_eq]
    show _ * x2 _ = _ * x2 _
    congr 1
    exact congrArg x2 (idx2_ext rfl rfl)
  · show x3 _ = x3 _
    exact congrArg x3 (idx1_ext rfl)

/-- The input-gate stage at `(b, g)` is the input gates of row `b` at `g`. -/
theorem v9_eq (i : S131072x768.Idx) :
    val_main_v9 (F := Ideal) x0 x2 x3 x4 x6 i
      = Cert.Gru.gateI (Cert.Gru.weightsOf x2 x3 x4 x5 x6 x7 x8 x9) (Cert.Gru.xRow x0 (i 0)) (i 1) := by
  rw [val_main_v9_apply, Ideal.addf_def, val_main_v6_apply, val_main_v8_apply, val_main_v7_apply]
  unfold Cert.Gru.gateI Cert.Gru.affine
  congr 1
  · refine Finset.sum_congr rfl fun k _ => ?_
    rw [v4_eq x0 x2 x3 x4 x5 x6 x7 x8 x9]
    show _ * x4 _ = _ * x4 _
    congr 1
    exact congrArg x4 (idx2_ext rfl rfl)
  · show x6 _ = x6 _
    exact congrArg x6 (idx1_ext rfl)

/-- The hidden-gate stage at `(b, g)` is the hidden gates of row `b` at `g`. -/
theorem v13_eq (i : S131072x768.Idx) :
    val_main_v13 (F := Ideal) x1 x5 x7 i
      = Cert.Gru.gateH (Cert.Gru.weightsOf x2 x3 x4 x5 x6 x7 x8 x9) (Cert.Gru.hRow x1 (i 0)) (i 1) := by
  rw [val_main_v13_apply, Ideal.addf_def, val_main_v10_apply, val_main_v12_apply, val_main_v11_apply]
  unfold Cert.Gru.gateH Cert.Gru.affine
  congr 1
  · refine Finset.sum_congr rfl fun k _ => ?_
    rw [v5_eq]
    show _ * x5 _ = _ * x5 _
    congr 1
    exact congrArg x5 (idx2_ext rfl rfl)
  · show x7 _ = x7 _
    exact congrArg x7 (idx1_ext rfl)

/-- The first slice of the input-gate stage at `(b, j)` is the input gates of row `b` at column `j`. -/
theorem v14_eq (i : S131072x256.Idx) :
    val_main_v14 (F := Ideal) x0 x2 x3 x4 x6 i
      = Cert.Gru.gateI (Cert.Gru.weightsOf x2 x3 x4 x5 x6 x7 x8 x9) (Cert.Gru.xRow x0 (i 0)) (Cert.Gru.lo (i 1)) := by
  rw [val_main_v14_apply, v9_eq x0 x2 x3 x4 x5 x6 x7 x8 x9]
  rfl

/-- The second slice of the input-gate stage at `(b, j)` is the input gates of row `b` at column `j + 256`. -/
theorem v15_eq (i : S131072x256.Idx) :
    val_main_v15 (F := Ideal) x0 x2 x3 x4 x6 i
      = Cert.Gru.gateI (Cert.Gru.weightsOf x2 x3 x4 x5 x6 x7 x8 x9) (Cert.Gru.xRow x0 (i 0)) (Cert.Gru.mid (i 1)) := by
  rw [val_main_v15_apply, v9_eq x0 x2 x3 x4 x5 x6 x7 x8 x9]
  exact congrArg (Cert.Gru.gateI _ _) (Fin.ext (Nat.add_comm _ _))

/-- The third slice of the input-gate stage at `(b, j)` is the input gates of row `b` at column `j + 512`. -/
theorem v16_eq (i : S131072x256.Idx) :
    val_main_v16 (F := Ideal) x0 x2 x3 x4 x6 i
      = Cert.Gru.gateI (Cert.Gru.weightsOf x2 x3 x4 x5 x6 x7 x8 x9) (Cert.Gru.xRow x0 (i 0)) (Cert.Gru.hi (i 1)) := by
  rw [val_main_v16_apply, v9_eq x0 x2 x3 x4 x5 x6 x7 x8 x9]
  exact congrArg (Cert.Gru.gateI _ _) (Fin.ext (Nat.add_comm _ _))

/-- The first slice of the hidden-gate stage at `(b, j)` is the hidden gates of row `b` at column `j`. -/
theorem v17_eq (i : S131072x256.Idx) :
    val_main_v17 (F := Ideal) x1 x5 x7 i
      = Cert.Gru.gateH (Cert.Gru.weightsOf x2 x3 x4 x5 x6 x7 x8 x9) (Cert.Gru.hRow x1 (i 0)) (Cert.Gru.lo (i 1)) := by
  rw [val_main_v17_apply, v13_eq x1 x2 x3 x4 x5 x6 x7 x8 x9]
  rfl

/-- The second slice of the hidden-gate stage at `(b, j)` is the hidden gates of row `b` at column `j + 256`. -/
theorem v18_eq (i : S131072x256.Idx) :
    val_main_v18 (F := Ideal) x1 x5 x7 i
      = Cert.Gru.gateH (Cert.Gru.weightsOf x2 x3 x4 x5 x6 x7 x8 x9) (Cert.Gru.hRow x1 (i 0)) (Cert.Gru.mid (i 1)) := by
  rw [val_main_v18_apply, v13_eq x1 x2 x3 x4 x5 x6 x7 x8 x9]
  exact congrArg (Cert.Gru.gateH _ _) (Fin.ext (Nat.add_comm _ _))

/-- The third slice of the hidden-gate stage at `(b, j)` is the hidden gates of row `b` at column `j + 512`. -/
theorem v19_eq (i : S131072x256.Idx) :
    val_main_v19 (F := Ideal) x1 x5 x7 i
      = Cert.Gru.gateH (Cert.Gru.weightsOf x2 x3 x4 x5 x6 x7 x8 x9) (Cert.Gru.hRow x1 (i 0)) (Cert.Gru.hi (i 1)) := by
  rw [val_main_v19_apply, v13_eq x1 x2 x3 x4 x5 x6 x7 x8 x9]
  exact congrArg (Cert.Gru.gateH _ _) (Fin.ext (Nat.add_comm _ _))

/-- The reference's new hidden state `[131072, 256]` (before the leading unit axis is added) is the row function at each row. -/
theorem hidden2_eq : val_main_v41 (F := Ideal) x0 x1 x2 x3 x4 x5 x6 x7 = Cert.Gru.hidden2 (Cert.Gru.weightsOf x2 x3 x4 x5 x6 x7 x8 x9) x0 x1 := by
  funext i
  simp only [val_main_v41_apply, val_main_v40_apply, val_main_v39_apply, val_main_v38_apply, val_main_v37_apply,
    val_main_v36_apply, val_main_v35_apply, val_main_v34_apply, val_main_v33_apply, val_main_v32_apply,
    val_main_v31_apply, val_main_v30_apply, val_main_v29_apply, val_main_v28_apply, val_main_v27_apply,
    val_main_v26_apply, val_main_v25_apply, val_main_v24_apply, val_main_v23_apply, val_main_v22_apply,
    val_main_v21_apply, val_main_v20_apply, val_main_cst_apply, val_main_cst_0_apply, val_main_cst_1_apply,
    val_main_cst_2_apply, val_main_cst_3_apply,
    v14_eq x0 x2 x3 x4 x5 x6 x7 x8 x9, v15_eq x0 x2 x3 x4 x5 x6 x7 x8 x9, v16_eq x0 x2 x3 x4 x5 x6 x7 x8 x9, v17_eq x1 x2 x3 x4 x5 x6 x7 x8 x9, v18_eq x1 x2 x3 x4 x5 x6 x7 x8 x9, v19_eq x1 x2 x3 x4 x5 x6 x7 x8 x9, v5_eq,
    Ideal.addf_def, Ideal.subf_def, Ideal.mulf_def, Ideal.hostDivf_def, Ideal.hostNegf_def, Ideal.negf_def,
    Ideal.hostUnary_exp_def, Ideal.hostUnary_tanh_def, Ideal.ofBits_def]
  rfl

/-- The reference's second result, the new hidden state `[1, 131072, 256]`. -/
theorem hidden_eq : val_main_v47 (F := Ideal) x0 x1 x2 x3 x4 x5 x6 x7 = Cert.Gru.hidden3 (Cert.Gru.weightsOf x2 x3 x4 x5 x6 x7 x8 x9) x0 x1 := by
  funext i
  rw [val_main_v47_apply, hidden2_eq x0 x1 x2 x3 x4 x5 x6 x7 x8 x9]
  rfl

/-- The reference's first result, the prediction `[131072, 1, 1]`. -/
theorem pred_eq : val_main_v46 (F := Ideal) x0 x1 x2 x3 x4 x5 x6 x7 x8 x9 = Cert.Gru.pred3 (Cert.Gru.weightsOf x2 x3 x4 x5 x6 x7 x8 x9) x0 x1 := by
  funext i
  rw [val_main_v46_apply, val_main_v45_apply, Ideal.addf_def, val_main_v42_apply, val_main_v44_apply,
    val_main_v43_apply, hidden2_eq x0 x1 x2 x3 x4 x5 x6 x7 x8 x9]
  unfold Cert.Gru.pred3 Cert.Gru.rowP Cert.Gru.affine
  congr 1
  · refine Finset.sum_congr rfl fun k _ => ?_
    show _ * x8 _ = _ * x8 _
    congr 1
    exact congrArg x8 (idx2_ext rfl rfl)
  · show x9 _ = x9 _
    exact congrArg x9 (idx1_ext rfl)

end Cert.ReferenceIdeal.RefValue

end
-- ==== Proof.KernelHost.lean ====
/-
  The arrays the kernel region finds, read at an entry. Before the region the entry point drops the unit axis of
  the two batch inputs, transposes the four weight matrices, and turns each bias vector into a one-row matrix;
  so at an entry each of those arrays is one entry of the argument it was made from:
    x2d[b, k] = x_step[b, 0, k],  h2d[b, k] = hidden_in[0, b, k],
    wprojᵀ[k, p] = W_proj[p, k],  wihᵀ[k, g] = W_ih[g, k],  whhᵀ[k, g] = W_hh[g, k],  wheadᵀ[k, 0] = W_head[0, k],
    bias rows [0, p] = bias[p].
  Then the blocks: grid point t stages rows 1024·t … 1024·t + 1023 of the two batch arrays and the whole of every
  parameter array.
-/
import proofs.«167147_j89644557402351_1_alg».proof.Proof.Gen.KernelIdeal.Frame
import proofs.«167147_j89644557402351_1_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HostValue

open Cert.KernelIdeal Cert.KernelIdeal.Gen

variable (m : (ℓ : Loc nD τ sig) → Buf (Elt Ideal) ℓ) (ρ : Dev nD → PrngReg)

/-! ## The host operations before the region -/

theorem V_v0 (c : Dev nD) : (V m c main_v0 : S131072x40.Idx → EReal) = shapeCast S131072x40 (m ((c : Thread nD τ).loc main_arg0)) shapeCasts_S131072x1x40_S131072x40 := by
  show StableHlo.after hostOps0 (fun b => m (c, b)) (Proc.devRef .tc main_v0) = _
  after_results
  try rfl
theorem V_v1 (c : Dev nD) : (V m c main_v1 : S131072x256.Idx → EReal) = shapeCast S131072x256 (m ((c : Thread nD τ).loc main_arg1)) shapeCasts_S1x131072x256_S131072x256 := by
  show StableHlo.after hostOps0 (fun b => m (c, b)) (Proc.devRef .tc main_v1) = _
  after_results
  try rfl
theorem V_v2 (c : Dev nD) : (V m c main_v2 : S40x128.Idx → EReal) = transpose S40x128 [1, 0] (m ((c : Thread nD τ).loc main_arg2)) transposes_S128x40_S40x128_1_0 := by
  show StableHlo.after hostOps0 (fun b => m (c, b)) (Proc.devRef .tc main_v2) = _
  after_results
  try rfl
theorem V_v3 (c : Dev nD) : (V m c main_v3 : S1x128.Idx → EReal) = shapeCast S1x128 (m ((c : Thread nD τ).loc main_arg3)) shapeCasts_S128_S1x128 := by
  show StableHlo.after hostOps0 (fun b => m (c, b)) (Proc.devRef .tc main_v3) = _
  after_results
  try rfl
theorem V_v4 (c : Dev nD) : (V m c main_v4 : S128x768.Idx → EReal) = transpose S128x768 [1, 0] (m ((c : Thread nD τ).loc main_arg4)) transposes_S768x128_S128x768_1_0 := by
  show StableHlo.after hostOps0 (fun b => m (c, b)) (Proc.devRef .tc main_v4) = _
  after_results
  try rfl
theorem V_v5 (c : Dev nD) : (V m c main_v5 : S1x768.Idx → EReal) = shapeCast S1x768 (m ((c : Thread nD τ).loc main_arg6)) shapeCasts_S768_S1x768 := by
  show StableHlo.after hostOps0 (fun b => m (c, b)) (Proc.devRef .tc main_v5) = _
  after_results
  try rfl
theorem V_v6 (c : Dev nD) : (V m c main_v6 : S256x768.Idx → EReal) = transpose S256x768 [1, 0] (m ((c : Thread nD τ).loc main_arg5)) transposes_S768x256_S256x768_1_0 := by
  show StableHlo.after hostOps0 (fun b => m (c, b)) (Proc.devRef .tc main_v6) = _
  after_results
  try rfl
theorem V_v7 (c : Dev nD) : (V m c main_v7 : S1x768.Idx → EReal) = shapeCast S1x768 (m ((c : Thread nD τ).loc main_arg7)) shapeCasts_S768_S1x768 := by
  show StableHlo.after hostOps0 (fun b => m (c, b)) (Proc.devRef .tc main_v7) = _
  after_results
  try rfl
theorem V_v8 (c : Dev nD) : (V m c main_v8 : S256x1.Idx → EReal) = transpose S256x1 [1, 0] (m ((c : Thread nD τ).loc main_arg8)) transposes_S1x256_S256x1_1_0 := by
  show StableHlo.after hostOps0 (fun b => m (c, b)) (Proc.devRef .tc main_v8) = _
  after_results
  try rfl
theorem V_v9 (c : Dev nD) : (V m c main_v9 : S1x1.Idx → EReal) = shapeCast S1x1 (m ((c : Thread nD τ).loc main_arg9)) shapeCasts_S1_S1x1 := by
  show StableHlo.after hostOps0 (fun b => m (c, b)) (Proc.devRef .tc main_v9) = _
  after_results
  try rfl

/-! ## Each of them at an entry -/

/-- `x2d[b, k] = x_step[b, 0, k]`: both sit at row-major position `40·b + k`. -/
theorem v0_at (c : Dev nD) (b : Fin 131072) (k : Fin 40) :
    (V m c main_v0 : S131072x40.Idx → EReal) (ix2 b k) = ((m ((c : Thread nD τ).loc main_arg0)) : S131072x1x40.Idx → EReal) (ix3 b (0 : Fin 1) k) := by
  rw [V_v0]
  exact shapeCast_apply _ shapeCasts_S131072x1x40_S131072x40 (ix2 b k) (ix3 b (0 : Fin 1) k)
    (by rewrite [Shape.rowMajor_val_three, Shape.rowMajor_val_two]; show (b.val * 1 + 0) * 40 + k.val = b.val * 40 + k.val; omega)

/-- `h2d[b, k] = hidden_in[0, b, k]`: both sit at row-major position `256·b + k`. -/
theorem v1_at (c : Dev nD) (b : Fin 131072) (k : Fin 256) :
    (V m c main_v1 : S131072x256.Idx → EReal) (ix2 b k) = ((m ((c : Thread nD τ).loc main_arg1)) : S1x131072x256.Idx → EReal) (ix3 (0 : Fin 1) b k) := by
  rw [V_v1]
  exact shapeCast_apply _ shapeCasts_S1x131072x256_S131072x256 (ix2 b k) (ix3 (0 : Fin 1) b k)
    (by rewrite [Shape.rowMajor_val_three, Shape.rowMajor_val_two]; show (0 * 131072 + b.val) * 256 + k.val = b.val * 256 + k.val; omega)

/-- `wprojᵀ[k, p] = W_proj[p, k]`. -/
theorem v2_at (c : Dev nD) (k : Fin 40) (p : Fin 128) :
    (V m c main_v2 : S40x128.Idx → EReal) (ix2 k p) = ((m ((c : Thread nD τ).loc main_arg2)) : S128x40.Idx → EReal) (ix2 p k) := by
  rw [V_v2]
  exact transpose_apply _ _ transposes_S128x40_S40x128_1_0 (ix2 k p) (ix2 p k) (fun a => match a with | ⟨0, _⟩ => rfl | ⟨1, _⟩ => rfl)

/-- The projection bias as a one-row matrix: `[0, p] = b_proj[p]`. -/
theorem v3_at (c : Dev nD) (p : Fin 128) :
    (V m c main_v3 : S1x128.Idx → EReal) (ix2 (0 : Fin 1) p) = ((m ((c : Thread nD τ).loc main_arg3)) : S128.Idx → EReal) (ix1 p) := by
  rw [V_v3]
  exact shapeCast_apply _ shapeCasts_S128_S1x128 (ix2 (0 : Fin 1) p) (ix1 p)
    (by rewrite [Shape.rowMajor_val_one, Shape.rowMajor_val_two]; show p.val = 0 * 128 + p.val; omega)

/-- `wihᵀ[k, g] = W_ih[g, k]`. -/
theorem v4_at (c : Dev nD) (k : Fin 128) (g : Fin 768) :
    (V m c main_v4 : S128x768.Idx → EReal) (ix2 k g) = ((m ((c : Thread nD τ).loc main_arg4)) : S768x128.Idx → EReal) (ix2 g k) := by
  rw [V_v4]
  exact transpose_apply _ _ transposes_S768x128_S128x768_1_0 (ix2 k g) (ix2 g k) (fun a => match a with | ⟨0, _⟩ => rfl | ⟨1, _⟩ => rfl)

/-- The input-gate bias as a one-row matrix: `[0, g] = b_ih[g]`. -/
theorem v5_at (c : Dev nD) (g : Fin 768) :
    (V m c main_v5 : S1x768.Idx → EReal) (ix2 (0 : Fin 1) g) = ((m ((c : Thread nD τ).loc main_arg6)) : S768.Idx → EReal) (ix1 g) := by
  rw [V_v5]
  exact shapeCast_apply _ shapeCasts_S768_S1x768 (ix2 (0 : Fin 1) g) (ix1 g)
    (by rewrite [Shape.rowMajor_val_one, Shape.rowMajor_val_two]; show g.val = 0 * 768 + g.val; omega)

/-- `whhᵀ[k, g] = W_hh[g, k]`. -/
theorem v6_at (c : Dev nD) (k : Fin 256) (g : Fin 768) :
    (V m c main_v6 : S256x768.Idx → EReal) (ix2 k g) = ((m ((c : Thread nD τ).loc main_arg5)) : S768x256.Idx → EReal) (ix2 g k) := by
  rw [V_v6]
  exact transpose_apply _ _ transposes_S768x256_S256x768_1_0 (ix2 k g) (ix2 g k) (fun a => match a with | ⟨0, _⟩ => rfl | ⟨1, _⟩ => rfl)

/-- The hidden-gate bias as a one-row matrix: `[0, g] = b_hh[g]`. -/
theorem v7_at (c : Dev nD) (g : Fin 768) :
    (V m c main_v7 : S1x768.Idx → EReal) (ix2 (0 : Fin 1) g) = ((m ((c : Thread nD τ).loc main_arg7)) : S768.Idx → EReal) (ix1 g) := by
  rw [V_v7]
  exact shapeCast_apply _ shapeCasts_S768_S1x768 (ix2 (0 : Fin 1) g) (ix1 g)
    (by rewrite [Shape.rowMajor_val_one, Shape.rowMajor_val_two]; show g.val = 0 * 768 + g.val; omega)

/-- `wheadᵀ[k, 0] = W_head[0, k]`. -/
theorem v8_at (c : Dev nD) (k : Fin 256) :
    (V m c main_v8 : S256x1.Idx → EReal) (ix2 k (0 : Fin 1)) = ((m ((c : Thread nD τ).loc main_arg8)) : S1x256.Idx → EReal) (ix2 (0 : Fin 1) k) := by
  rw [V_v8]
  exact transpose_apply _ _ transposes_S1x256_S256x1_1_0 (ix2 k (0 : Fin 1)) (ix2 (0 : Fin 1) k) (fun a => match a with | ⟨0, _⟩ => rfl | ⟨1, _⟩ => rfl)

/-- The head's bias as a one-by-one matrix. -/
theorem v9_at (c : Dev nD) :
    (V m c main_v9 : S1x1.Idx → EReal) (ix2 (0 : Fin 1) (0 : Fin 1)) = ((m ((c : Thread nD τ).loc main_arg9)) : S1.Idx → EReal) (ix1 (0 : Fin 1)) := by
  rw [V_v9]
  exact shapeCast_apply _ shapeCasts_S1_S1x1 (ix2 (0 : Fin 1) (0 : Fin 1)) (ix1 (0 : Fin 1))
    (by rewrite [Shape.rowMajor_val_one, Shape.rowMajor_val_two]; rfl)

/-! ## The blocks a grid point stages -/

/-- The block index of every window at every grid point: the two batch inputs and the two outputs move one block of
    rows per point, every parameter array is one block, staged whole. Decided over the 128 points. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

theorem idx_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

theorem point_lt (t : Fin cfg0.N) : t.val < 128 := by
  exact lt_of_lt_of_eq t.isLt N_0

/-- Row `r` of the block of rows that grid point `t` works on is row `1024·t + r` of the batch. -/
def rowOf (t : Fin cfg0.N) (r : Fin 1024) : Fin 131072 := ⟨t.val * 1024 + r.val, by have := point_lt t; have := r.isLt; omega⟩

theorem iblk0_at (c : Dev nD) (t : Fin cfg0.N) (r : Fin 1024) (k : Fin 40) :
    (iblk m c 0 t : Vec Ideal S1024x40 .f32) (ix2 r k) = (V m c main_v0 : S131072x40.Idx → EReal) (ix2 (rowOf t r) k) := by
  unfold iblk
  rw [View.read_apply]
  show V m c main_v0 _ = V m c main_v0 _
  congr 1
  funext a
  apply Fin.ext
  match a with
  | ⟨0, _⟩ => show win0_0.index t (0 : Fin 2) * 1024 + 1 * r.val = t.val * 1024 + r.val; rw [(idx_rows t).1]; omega
  | ⟨1, _⟩ => show win0_0.index t (1 : Fin 2) * 40 + 1 * k.val = k.val; rw [(idx_rows t).2.1]; omega

theorem iblk1_at (c : Dev nD) (t : Fin cfg0.N) (r : Fin 1024) (k : Fin 256) :
    (iblk m c 1 t : Vec Ideal S1024x256 .f32) (ix2 r k) = (V m c main_v1 : S131072x256.Idx → EReal) (ix2 (rowOf t r) k) := by
  unfold iblk
  rw [View.read_apply]
  show V m c main_v1 _ = V m c main_v1 _
  congr 1
  funext a
  apply Fin.ext
  match a with
  | ⟨0, _⟩ => show win0_1.index t (0 : Fin 2) * 1024 + 1 * r.val = t.val * 1024 + r.val; rw [(idx_rows t).2.2.1]; omega
  | ⟨1, _⟩ => show win0_1.index t (1 : Fin 2) * 256 + 1 * k.val = k.val; rw [(idx_rows t).2.2.2.1]; omega

theorem iblk2_at (c : Dev nD) (t : Fin cfg0.N) (a0 : Fin 40) (a1 : Fin 128) :
    (iblk m c 2 t : Vec Ideal S40x128 .f32) (ix2 a0 a1) = (V m c main_v2 : S40x128.Idx → EReal) (ix2 a0 a1) := by
  unfold iblk
  rw [View.read_apply]
  show V m c main_v2 _ = V m c main_v2 _
  congr 1
  funext a
  apply Fin.ext
  match a with
  | ⟨0, _⟩ => show win0_2.index t (0 : Fin 2) * 40 + 1 * a0.val = a0.val; rw [(idx_whole t).1]; omega
  | ⟨1, _⟩ => show win0_2.index t (1 : Fin 2) * 128 + 1 * a1.val = a1.val; rw [(idx_whole t).2.1]; omega

theorem iblk3_at (c : Dev nD) (t : Fin cfg0.N) (a0 : Fin 1) (a1 : Fin 128) :
    (iblk m c 3 t : Vec Ideal S1x128 .f32) (ix2 a0 a1) = (V m c main_v3 : S1x128.Idx → EReal) (ix2 a0 a1) := by
  unfold iblk
  rw [View.read_apply]
  show V m c main_v3 _ = V m c main_v3 _
  congr 1
  funext a
  apply Fin.ext
  match a with
  | ⟨0, _⟩ => show win0_3.index t (0 : Fin 2) * 1 + 1 * a0.val = a0.val; rw [(idx_whole t).2.2.1]; omega
  | ⟨1, _⟩ => show win0_3.index t (1 : Fin 2) * 128 + 1 * a1.val = a1.val; rw [(idx_whole t).2.2.2.1]; omega

theorem iblk4_at (c : Dev nD) (t : Fin cfg0.N) (a0 : Fin 128) (a1 : Fin 768) :
    (iblk m c 4 t : Vec Ideal S128x768 .f32) (ix2 a0 a1) = (V m c main_v4 : S128x768.Idx → EReal) (ix2 a0 a1) := by
  unfold iblk
  rw [View.read_apply]
  show V m c main_v4 _ = V m c main_v4 _
  congr 1
  funext a
  apply Fin.ext
  match a with
  | ⟨0, _⟩ => show win0_4.index t (0 : Fin 2) * 128 + 1 * a0.val = a0.val; rw [(idx_whole t).2.2.2.2.1]; omega
  | ⟨1, _⟩ => show win0_4.index t (1 : Fin 2) * 768 + 1 * a1.val = a1.val; rw [(idx_whole t).2.2.2.2.2.1]; omega

theorem iblk5_at (c : Dev nD) (t : Fin cfg0.N) (a0 : Fin 1) (a1 : Fin 768) :
    (iblk m c 5 t : Vec Ideal S1x768 .f32) (ix2 a0 a1) = (V m c main_v5 : S1x768.Idx → EReal) (ix2 a0 a1) := by
  unfold iblk
  rw [View.read_apply]
  show V m c main_v5 _ = V m c main_v5 _
  congr 1
  funext a
  apply Fin.ext
  match a with
  | ⟨0, _⟩ => show win0_5.index t (0 : Fin 2) * 1 + 1 * a0.val = a0.val; rw [(idx_whole t).2.2.2.2.2.2.1]; omega
  | ⟨1, _⟩ => show win0_5.index t (1 : Fin 2) * 768 + 1 * a1.val = a1.val; rw [(idx_whole t).2.2.2.2.2.2.2.1]; omega

theorem iblk6_at (c : Dev nD) (t : Fin cfg0.N) (a0 : Fin 256) (a1 : Fin 768) :
    (iblk m c 6 t : Vec Ideal S256x768 .f32) (ix2 a0 a1) = (V m c main_v6 : S256x768.Idx → EReal) (ix2 a0 a1) := by
  unfold iblk
  rw [View.read_apply]
  show V m c main_v6 _ = V m c main_v6 _
  congr 1
  funext a
  apply Fin.ext
  match a with
  | ⟨0, _⟩ => show win0_6.index t (0 : Fin 2) * 256 + 1 * a0.val = a0.val; rw [(idx_whole t).2.2.2.2.2.2.2.2.1]; omega
  | ⟨1, _⟩ => show win0_6.index t (1 : Fin 2) * 768 + 1 * a1.val = a1.val; rw [(idx_whole t).2.2.2.2.2.2.2.2.2.1]; omega

theorem iblk7_at (c : Dev nD) (t : Fin cfg0.N) (a0 : Fin 1) (a1 : Fin 768) :
    (iblk m c 7 t : Vec Ideal S1x768 .f32) (ix2 a0 a1) = (V m c main_v7 : S1x768.Idx → EReal) (ix2 a0 a1) := by
  unfold iblk
  rw [View.read_apply]
  show V m c main_v7 _ = V m c main_v7 _
  congr 1
  funext a
  apply Fin.ext
  match a with
  | ⟨0, _⟩ => show win0_7.index t (0 : Fin 2) * 1 + 1 * a0.val = a0.val; rw [(idx_whole t).2.2.2.2.2.2.2.2.2.2.1]; omega
  | ⟨1, _⟩ => show win0_7.index t (1 : Fin 2) * 768 + 1 * a1.val = a1.val; rw [(idx_whole t).2.2.2.2.2.2.2.2.2.2.2.1]; omega

theorem iblk8_at (c : Dev nD) (t : Fin cfg0.N) (a0 : Fin 256) (a1 : Fin 1) :
    (iblk m c 8 t : Vec Ideal S256x1 .f32) (ix2 a0 a1) = (V m c main_v8 : S256x1.Idx → EReal) (ix2 a0 a1) := by
  unfold iblk
  rw [View.read_apply]
  show V m c main_v8 _ = V m c main_v8 _
  congr 1
  funext a
  apply Fin.ext
  match a with
  | ⟨0, _⟩ => show win0_8.index t (0 : Fin 2) * 256 + 1 * a0.val = a0.val; rw [(idx_whole t).2.2.2.2.2.2.2.2.2.2.2.2.1]; omega
  | ⟨1, _⟩ => show win0_8.index t (1 : Fin 2) * 1 + 1 * a1.val = a1.val; rw [(idx_whole t).2.2.2.2.2.2.2.2.2.2.2.2.2.1]; omega

theorem iblk9_at (c : Dev nD) (t : Fin cfg0.N) (a0 : Fin 1) (a1 : Fin 1) :
    (iblk m c 9 t : Vec Ideal S1x1 .f32) (ix2 a0 a1) = (V m c main_v9 : S1x1.Idx → EReal) (ix2 a0 a1) := by
  unfold iblk
  rw [View.read_apply]
  show V m c main_v9 _ = V m c main_v9 _
  congr 1
  funext a
  apply Fin.ext
  match a with
  | ⟨0, _⟩ => show win0_9.index t (0 : Fin 2) * 1 + 1 * a0.val = a0.val; rw [(idx_whole t).2.2.2.2.2.2.2.2.2.2.2.2.2.2.1]; omega
  | ⟨1, _⟩ => show win0_9.index t (1 : Fin 2) * 1 + 1 * a1.val = a1.val; rw [(idx_whole t).2.2.2.2.2.2.2.2.2.2.2.2.2.2.2]; omega

end Cert.KernelIdeal.HostValue

end
-- ==== Proof.KernelRow.lean ====
/-
  One block of the kernel body, read at an entry: row `r` of the block of new hidden states, and row `r` of the
  block of predictions, are the row functions of the GRU step at row `r` of the two batch blocks. The parameters
  reach the body transposed and as one-row matrices; the hypotheses say what each holds.
-/
import proofs.«167147_j89644557402351_1_alg».proof.Proof.Gen.KernelIdeal.Skeleton
import proofs.«167147_j89644557402351_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.RowValue

open Cert.KernelIdeal Cert.KernelIdeal.Gen Idealize.ShloMosaic Idealize.ShloMosaic.ValueIdx

/-! ### The matrix product `[1024, 40] × [40, 128]` read at an entry -/

/-- The left operand's row coordinate is the output's row. -/
theorem mmP_lhs_0 (i : S1024x128.Idx) (q : dot_S1024x40_S40x128_S1024x128_1_0_0_1_n_n.contr.Idx) :
    (dot_S1024x40_S40x128_S1024x128_1_0_0_1_n_n.lhsIdx i q 0).val = (i 0).val := by
  unfold DotDims.lhsIdx
  rw [dif_neg (show ¬(0 : Fin S1024x40.rank) ∈ dot_S1024x40_S40x128_S1024x128_1_0_0_1_n_n.lhsBatch by decide), dif_pos (show (0 : Fin S1024x40.rank) ∈ dot_S1024x40_S40x128_S1024x128_1_0_0_1_n_n.lhsNonContracting by decide)]
  rfl
/-- The left operand's column coordinate is the contraction position. -/
theorem mmP_lhs_1 (i : S1024x128.Idx) (q : dot_S1024x40_S40x128_S1024x128_1_0_0_1_n_n.contr.Idx) :
    (dot_S1024x40_S40x128_S1024x128_1_0_0_1_n_n.lhsIdx i q 1).val = (q ⟨0, by decide⟩).val :=
  dot_S1024x40_S40x128_S1024x128_1_0_0_1_n_n.lhsIdx_val_of_single rfl i q
/-- The right operand's row coordinate is the contraction position. -/
theorem mmP_rhs_0 (i : S1024x128.Idx) (q : dot_S1024x40_S40x128_S1024x128_1_0_0_1_n_n.contr.Idx) :
    (dot_S1024x40_S40x128_S1024x128_1_0_0_1_n_n.rhsIdx i q 0).val = (q ⟨0, by decide⟩).val :=
  dot_S1024x40_S40x128_S1024x128_1_0_0_1_n_n.rhsIdx_val_of_single rfl i q
/-- The right operand's column coordinate is the output's column. -/
theorem mmP_rhs_1 (i : S1024x128.Idx) (q : dot_S1024x40_S40x128_S1024x128_1_0_0_1_n_n.contr.Idx) :
    (dot_S1024x40_S40x128_S1024x128_1_0_0_1_n_n.rhsIdx i q 1).val = (i 1).val := by
  unfold DotDims.rhsIdx
  rw [dif_neg (show ¬(1 : Fin S40x128.rank) ∈ dot_S1024x40_S40x128_S1024x128_1_0_0_1_n_n.rhsBatch by decide), dif_pos (show (1 : Fin S40x128.rank) ∈ dot_S1024x40_S40x128_S1024x128_1_0_0_1_n_n.rhsNonContracting by decide)]
  rfl
/-- Entry `(a, b)` of the product into a zero accumulator is `∑ k, l (a, k) · r (k, b)`. -/
theorem mmP_apply {φ₁ φ₂ : FTy} (l : FVec Ideal S1024x40 φ₁) (r : FVec Ideal S40x128 φ₂) (a : Fin 1024) (b : Fin 128) :
    matmul (F := Ideal) dot_S1024x40_S40x128_S1024x128_1_0_0_1_n_n none l r (constant (F := Ideal) S1024x128 .f32 0x00000000#32) (ix2 a b)
      = ∑ k : Fin 40, l (ix2 a k) * r (ix2 k b) := by
  simp only [matmul]
  rw [Ideal.matmul_constant_zero_apply, ← Equiv.sum_comp (contrEquiv1 dot_S1024x40_S40x128_S1024x128_1_0_0_1_n_n 40 rfl rfl).symm]
  refine Finset.sum_congr rfl fun k _ => ?_
  have hk := contrEquiv1_symm_val dot_S1024x40_S40x128_S1024x128_1_0_0_1_n_n 40 rfl rfl k
  have el : dot_S1024x40_S40x128_S1024x128_1_0_0_1_n_n.lhsIdx (ix2 a b) ((contrEquiv1 dot_S1024x40_S40x128_S1024x128_1_0_0_1_n_n 40 rfl rfl).symm k) = ix2 a k := funext fun c => Fin.ext (by
    match c with
    | ⟨0, _⟩ => exact mmP_lhs_0 _ _
    | ⟨1, _⟩ => exact (mmP_lhs_1 _ _).trans hk)
  have er : dot_S1024x40_S40x128_S1024x128_1_0_0_1_n_n.rhsIdx (ix2 a b) ((contrEquiv1 dot_S1024x40_S40x128_S1024x128_1_0_0_1_n_n 40 rfl rfl).symm k) = ix2 k b := funext fun c => Fin.ext (by
    match c with
    | ⟨0, _⟩ => exact (mmP_rhs_0 _ _).trans hk
    | ⟨1, _⟩ => exact mmP_rhs_1 _ _)
  rw [el, er]

/-! ### The matrix product `[1024, 128] × [128, 768]` read at an entry -/

/-- The left operand's row coordinate is the output's row. -/
theorem mmI_lhs_0 (i : S1024x768.Idx) (q : dot_S1024x128_S128x768_S1024x768_1_0_0_1_n_n.contr.Idx) :
    (dot_S1024x128_S128x768_S1024x768_1_0_0_1_n_n.lhsIdx i q 0).val = (i 0).val := by
  unfold DotDims.lhsIdx
  rw [dif_neg (show ¬(0 : Fin S1024x128.rank) ∈ dot_S1024x128_S128x768_S1024x768_1_0_0_1_n_n.lhsBatch by decide), dif_pos (show (0 : Fin S1024x128.rank) ∈ dot_S1024x128_S128x768_S1024x768_1_0_0_1_n_n.lhsNonContracting by decide)]
  rfl
/-- The left operand's column coordinate is the contraction position. -/
theorem mmI_lhs_1 (i : S1024x768.Idx) (q : dot_S1024x128_S128x768_S1024x768_1_0_0_1_n_n.contr.Idx) :
    (dot_S1024x128_S128x768_S1024x768_1_0_0_1_n_n.lhsIdx i q 1).val = (q ⟨0, by decide⟩).val :=
  dot_S1024x128_S128x768_S1024x768_1_0_0_1_n_n.lhsIdx_val_of_single rfl i q
/-- The right operand's row coordinate is the contraction position. -/
theorem mmI_rhs_0 (i : S1024x768.Idx) (q : dot_S1024x128_S128x768_S1024x768_1_0_0_1_n_n.contr.Idx) :
    (dot_S1024x128_S128x768_S1024x768_1_0_0_1_n_n.rhsIdx i q 0).val = (q ⟨0, by decide⟩).val :=
  dot_S1024x128_S128x768_S1024x768_1_0_0_1_n_n.rhsIdx_val_of_single rfl i q
/-- The right operand's column coordinate is the output's column. -/
theorem mmI_rhs_1 (i : S1024x768.Idx) (q : dot_S1024x128_S128x768_S1024x768_1_0_0_1_n_n.contr.Idx) :
    (dot_S1024x128_S128x768_S1024x768_1_0_0_1_n_n.rhsIdx i q 1).val = (i 1).val := by
  unfold DotDims.rhsIdx
  rw [dif_neg (show ¬(1 : Fin S128x768.rank) ∈ dot_S1024x128_S128x768_S1024x768_1_0_0_1_n_n.rhsBatch by decide), dif_pos (show (1 : Fin S128x768.rank) ∈ dot_S1024x128_S128x768_S1024x768_1_0_0_1_n_n.rhsNonContracting by decide)]
  rfl
/-- Entry `(a, b)` of the product into a zero accumulator is `∑ k, l (a, k) · r (k, b)`. -/
theorem mmI_apply {φ₁ φ₂ : FTy} (l : FVec Ideal S1024x128 φ₁) (r : FVec Ideal S128x768 φ₂) (a : Fin 1024) (b : Fin 768) :
    matmul (F := Ideal) dot_S1024x128_S128x768_S1024x768_1_0_0_1_n_n none l r (constant (F := Ideal) S1024x768 .f32 0x00000000#32) (ix2 a b)
      = ∑ k : Fin 128, l (ix2 a k) * r (ix2 k b) := by
  simp only [matmul]
  rw [Ideal.matmul_constant_zero_apply, ← Equiv.sum_comp (contrEquiv1 dot_S1024x128_S128x768_S1024x768_1_0_0_1_n_n 128 rfl rfl).symm]
  refine Finset.sum_congr rfl fun k _ => ?_
  have hk := contrEquiv1_symm_val dot_S1024x128_S128x768_S1024x768_1_0_0_1_n_n 128 rfl rfl k
  have el : dot_S1024x128_S128x768_S1024x768_1_0_0_1_n_n.lhsIdx (ix2 a b) ((contrEquiv1 dot_S1024x128_S128x768_S1024x768_1_0_0_1_n_n 128 rfl rfl).symm k) = ix2 a k := funext fun c => Fin.ext (by
    match c with
    | ⟨0, _⟩ => exact mmI_lhs_0 _ _
    | ⟨1, _⟩ => exact (mmI_lhs_1 _ _).trans hk)
  have er : dot_S1024x128_S128x768_S1024x768_1_0_0_1_n_n.rhsIdx (ix2 a b) ((contrEquiv1 dot_S1024x128_S128x768_S1024x768_1_0_0_1_n_n 128 rfl rfl).symm k) = ix2 k b := funext fun c => Fin.ext (by
    match c with
    | ⟨0, _⟩ => exact (mmI_rhs_0 _ _).trans hk
    | ⟨1, _⟩ => exact mmI_rhs_1 _ _)
  rw [el, er]

/-! ### The matrix product `[1024, 256] × [256, 768]` read at an entry -/

/-- The left operand's row coordinate is the output's row. -/
theorem mmH_lhs_0 (i : S1024x768.Idx) (q : dot_S1024x256_S256x768_S1024x768_1_0_0_1_n_n.contr.Idx) :
    (dot_S1024x256_S256x768_S1024x768_1_0_0_1_n_n.lhsIdx i q 0).val = (i 0).val := by
  unfold DotDims.lhsIdx
  rw [dif_neg (show ¬(0 : Fin S1024x256.rank) ∈ dot_S1024x256_S256x768_S1024x768_1_0_0_1_n_n.lhsBatch by decide), dif_pos (show (0 : Fin S1024x256.rank) ∈ dot_S1024x256_S256x768_S1024x768_1_0_0_1_n_n.lhsNonContracting by decide)]
  rfl
/-- The left operand's column coordinate is the contraction position. -/
theorem mmH_lhs_1 (i : S1024x768.Idx) (q : dot_S1024x256_S256x768_S1024x768_1_0_0_1_n_n.contr.Idx) :
    (dot_S1024x256_S256x768_S1024x768_1_0_0_1_n_n.lhsIdx i q 1).val = (q ⟨0, by decide⟩).val :=
  dot_S1024x256_S256x768_S1024x768_1_0_0_1_n_n.lhsIdx_val_of_single rfl i q
/-- The right operand's row coordinate is the contraction position. -/
theorem mmH_rhs_0 (i : S1024x768.Idx) (q : dot_S1024x256_S256x768_S1024x768_1_0_0_1_n_n.contr.Idx) :
    (dot_S1024x256_S256x768_S1024x768_1_0_0_1_n_n.rhsIdx i q 0).val = (q ⟨0, by decide⟩).val :=
  dot_S1024x256_S256x768_S1024x768_1_0_0_1_n_n.rhsIdx_val_of_single rfl i q
/-- The right operand's column coordinate is the output's column. -/
theorem mmH_rhs_1 (i : S1024x768.Idx) (q : dot_S1024x256_S256x768_S1024x768_1_0_0_1_n_n.contr.Idx) :
    (dot_S1024x256_S256x768_S1024x768_1_0_0_1_n_n.rhsIdx i q 1).val = (i 1).val := by
  unfold DotDims.rhsIdx
  rw [dif_neg (show ¬(1 : Fin S256x768.rank) ∈ dot_S1024x256_S256x768_S1024x768_1_0_0_1_n_n.rhsBatch by decide), dif_pos (show (1 : Fin S256x768.rank) ∈ dot_S1024x256_S256x768_S1024x768_1_0_0_1_n_n.rhsNonContracting by decide)]
  rfl
/-- Entry `(a, b)` of the product into a zero accumulator is `∑ k, l (a, k) · r (k, b)`. -/
theorem mmH_apply {φ₁ φ₂ : FTy} (l : FVec Ideal S1024x256 φ₁) (r : FVec Ideal S256x768 φ₂) (a : Fin 1024) (b : Fin 768) :
    matmul (F := Ideal) dot_S1024x256_S256x768_S1024x768_1_0_0_1_n_n none l r (constant (F := Ideal) S1024x768 .f32 0x00000000#32) (ix2 a b)
      = ∑ k : Fin 256, l (ix2 a k) * r (ix2 k b) := by
  simp only [matmul]
  rw [Ideal.matmul_constant_zero_apply, ← Equiv.sum_comp (contrEquiv1 dot_S1024x256_S256x768_S1024x768_1_0_0_1_n_n 256 rfl rfl).symm]
  refine Finset.sum_congr rfl fun k _ => ?_
  have hk := contrEquiv1_symm_val dot_S1024x256_S256x768_S1024x768_1_0_0_1_n_n 256 rfl rfl k
  have el : dot_S1024x256_S256x768_S1024x768_1_0_0_1_n_n.lhsIdx (ix2 a b) ((contrEquiv1 dot_S1024x256_S256x768_S1024x768_1_0_0_1_n_n 256 rfl rfl).symm k) = ix2 a k := funext fun c => Fin.ext (by
    match c with
    | ⟨0, _⟩ => exact mmH_lhs_0 _ _
    | ⟨1, _⟩ => exact (mmH_lhs_1 _ _).trans hk)
  have er : dot_S1024x256_S256x768_S1024x768_1_0_0_1_n_n.rhsIdx (ix2 a b) ((contrEquiv1 dot_S1024x256_S256x768_S1024x768_1_0_0_1_n_n 256 rfl rfl).symm k) = ix2 k b := funext fun c => Fin.ext (by
    match c with
    | ⟨0, _⟩ => exact (mmH_rhs_0 _ _).trans hk
    | ⟨1, _⟩ => exact mmH_rhs_1 _ _)
  rw [el, er]

/-! ### The matrix product `[1024, 256] × [256, 1]` read at an entry -/

/-- The left operand's row coordinate is the output's row. -/
theorem mmD_lhs_0 (i : S1024x1.Idx) (q : dot_S1024x256_S256x1_S1024x1_1_0_0_1_n_n.contr.Idx) :
    (dot_S1024x256_S256x1_S1024x1_1_0_0_1_n_n.lhsIdx i q 0).val = (i 0).val := by
  unfold DotDims.lhsIdx
  rw [dif_neg (show ¬(0 : Fin S1024x256.rank) ∈ dot_S1024x256_S256x1_S1024x1_1_0_0_1_n_n.lhsBatch by decide), dif_pos (show (0 : Fin S1024x256.rank) ∈ dot_S1024x256_S256x1_S1024x1_1_0_0_1_n_n.lhsNonContracting by decide)]
  rfl
/-- The left operand's column coordinate is the contraction position. -/
theorem mmD_lhs_1 (i : S1024x1.Idx) (q : dot_S1024x256_S256x1_S1024x1_1_0_0_1_n_n.contr.Idx) :
    (dot_S1024x256_S256x1_S1024x1_1_0_0_1_n_n.lhsIdx i q 1).val = (q ⟨0, by decide⟩).val :=
  dot_S1024x256_S256x1_S1024x1_1_0_0_1_n_n.lhsIdx_val_of_single rfl i q
/-- The right operand's row coordinate is the contraction position. -/
theorem mmD_rhs_0 (i : S1024x1.Idx) (q : dot_S1024x256_S256x1_S1024x1_1_0_0_1_n_n.contr.Idx) :
    (dot_S1024x256_S256x1_S1024x1_1_0_0_1_n_n.rhsIdx i q 0).val = (q ⟨0, by decide⟩).val :=
  dot_S1024x256_S256x1_S1024x1_1_0_0_1_n_n.rhsIdx_val_of_single rfl i q
/-- The right operand's column coordinate is the output's column. -/
theorem mmD_rhs_1 (i : S1024x1.Idx) (q : dot_S1024x256_S256x1_S1024x1_1_0_0_1_n_n.contr.Idx) :
    (dot_S1024x256_S256x1_S1024x1_1_0_0_1_n_n.rhsIdx i q 1).val = (i 1).val := by
  unfold DotDims.rhsIdx
  rw [dif_neg (show ¬(1 : Fin S256x1.rank) ∈ dot_S1024x256_S256x1_S1024x1_1_0_0_1_n_n.rhsBatch by decide), dif_pos (show (1 : Fin S256x1.rank) ∈ dot_S1024x256_S256x1_S1024x1_1_0_0_1_n_n.rhsNonContracting by decide)]
  rfl
/-- Entry `(a, b)` of the product into a zero accumulator is `∑ k, l (a, k) · r (k, b)`. -/
theorem mmD_apply {φ₁ φ₂ : FTy} (l : FVec Ideal S1024x256 φ₁) (r : FVec Ideal S256x1 φ₂) (a : Fin 1024) (b : Fin 1) :
    matmul (F := Ideal) dot_S1024x256_S256x1_S1024x1_1_0_0_1_n_n none l r (constant (F := Ideal) S1024x1 .f32 0x00000000#32) (ix2 a b)
      = ∑ k : Fin 256, l (ix2 a k) * r (ix2 k b) := by
  simp only [matmul]
  rw [Ideal.matmul_constant_zero_apply, ← Equiv.sum_comp (contrEquiv1 dot_S1024x256_S256x1_S1024x1_1_0_0_1_n_n 256 rfl rfl).symm]
  refine Finset.sum_congr rfl fun k _ => ?_
  have hk := contrEquiv1_symm_val dot_S1024x256_S256x1_S1024x1_1_0_0_1_n_n 256 rfl rfl k
  have el : dot_S1024x256_S256x1_S1024x1_1_0_0_1_n_n.lhsIdx (ix2 a b) ((contrEquiv1 dot_S1024x256_S256x1_S1024x1_1_0_0_1_n_n 256 rfl rfl).symm k) = ix2 a k := funext fun c => Fin.ext (by
    match c with
    | ⟨0, _⟩ => exact mmD_lhs_0 _ _
    | ⟨1, _⟩ => exact (mmD_lhs_1 _ _).trans hk)
  have er : dot_S1024x256_S256x1_S1024x1_1_0_0_1_n_n.rhsIdx (ix2 a b) ((contrEquiv1 dot_S1024x256_S256x1_S1024x1_1_0_0_1_n_n 256 rfl rfl).symm k) = ix2 k b := funext fun c => Fin.ext (by
    match c with
    | ⟨0, _⟩ => exact (mmD_rhs_0 _ _).trans hk
    | ⟨1, _⟩ => exact mmD_rhs_1 _ _)
  rw [el, er]

/-! ### The layout operations read at an entry -/

/-- The one-row `[1, 128]` block broadcast down `1024` rows reads its one row. -/
theorem bc128_apply {α : Type} (v : S1x128.Idx → α) (r : Fin 1024) (p : Fin 128) :
    broadcastTo S1024x128 v broadcasts_S1x128_S1024x128 (ix2 r p) = v (ix2 (0 : Fin 1) p) :=
  broadcastTo_apply v broadcasts_S1x128_S1024x128 (ix2 r p) (ix2 (0 : Fin 1) p) fun a =>
    match a with
    | ⟨0, _⟩ => by show (0 : Nat) = if (1 : Nat) = 1 then 0 else r.val; rw [if_pos rfl]
    | ⟨1, _⟩ => by show p.val = if (128 : Nat) = 1 then 0 else p.val; rw [if_neg (by decide)]

/-- The one-row `[1, 768]` block broadcast down `1024` rows reads its one row. -/
theorem bc768_apply {α : Type} (v : S1x768.Idx → α) (r : Fin 1024) (p : Fin 768) :
    broadcastTo S1024x768 v broadcasts_S1x768_S1024x768 (ix2 r p) = v (ix2 (0 : Fin 1) p) :=
  broadcastTo_apply v broadcasts_S1x768_S1024x768 (ix2 r p) (ix2 (0 : Fin 1) p) fun a =>
    match a with
    | ⟨0, _⟩ => by show (0 : Nat) = if (1 : Nat) = 1 then 0 else r.val; rw [if_pos rfl]
    | ⟨1, _⟩ => by show p.val = if (768 : Nat) = 1 then 0 else p.val; rw [if_neg (by decide)]

/-- The one-row `[1, 1]` block broadcast down `1024` rows reads its one row. -/
theorem bc1_apply {α : Type} (v : S1x1.Idx → α) (r : Fin 1024) (p : Fin 1) :
    broadcastTo S1024x1 v broadcasts_S1x1_S1024x1 (ix2 r p) = v (ix2 (0 : Fin 1) p) :=
  broadcastTo_apply v broadcasts_S1x1_S1024x1 (ix2 r p) (ix2 (0 : Fin 1) p) fun a =>
    match a with
    | ⟨0, _⟩ => by show (0 : Nat) = if (1 : Nat) = 1 then 0 else r.val; rw [if_pos rfl]
    | ⟨1, _⟩ => by show p.val = if (1 : Nat) = 1 then 0 else p.val; rw [if_pos rfl]; have := p.isLt; omega

/-- The slice of columns `0 … 255` read at `(r, j)` is the operand at column `j`. -/
theorem sliceLo_apply {α : Type} (v : S1024x768.Idx → α) (r : Fin 1024) (j : Fin 256) :
    extractStridedSlice S1024x256 ![0, 0] v slices_S1024x768_o0_0_S1024x256 (ix2 r j) = v (ix2 r (Cert.Gru.lo j)) :=
  extractStridedSlice_apply ![0, 0] v slices_S1024x768_o0_0_S1024x256 (ix2 r j) (ix2 r (Cert.Gru.lo j)) fun a =>
    match a with
    | ⟨0, _⟩ => by show r.val = 0 + r.val; omega
    | ⟨1, _⟩ => by show j.val = 0 + j.val; omega

/-- The slice of columns `256 … 511` read at `(r, j)` is the operand at column `j + 256`. -/
theorem sliceMid_apply {α : Type} (v : S1024x768.Idx → α) (r : Fin 1024) (j : Fin 256) :
    extractStridedSlice S1024x256 ![0, 256] v slices_S1024x768_o0_256_S1024x256 (ix2 r j) = v (ix2 r (Cert.Gru.mid j)) :=
  extractStridedSlice_apply ![0, 256] v slices_S1024x768_o0_256_S1024x256 (ix2 r j) (ix2 r (Cert.Gru.mid j)) fun a =>
    match a with
    | ⟨0, _⟩ => by show r.val = 0 + r.val; omega
    | ⟨1, _⟩ => by show j.val + 256 = 256 + j.val; omega

/-- The slice of columns `512 … 767` read at `(r, j)` is the operand at column `j + 512`. -/
theorem sliceHi_apply {α : Type} (v : S1024x768.Idx → α) (r : Fin 1024) (j : Fin 256) :
    extractStridedSlice S1024x256 ![0, 512] v slices_S1024x768_o0_512_S1024x256 (ix2 r j) = v (ix2 r (Cert.Gru.hi j)) :=
  extractStridedSlice_apply ![0, 512] v slices_S1024x768_o0_512_S1024x256 (ix2 r j) (ix2 r (Cert.Gru.hi j)) fun a =>
    match a with
    | ⟨0, _⟩ => by show r.val = 0 + r.val; omega
    | ⟨1, _⟩ => by show j.val + 512 = 512 + j.val; omega

variable (W : Cert.Gru.Weights)
  (x0 : Vec Ideal S1024x40 .f32) (x1 : Vec Ideal S1024x256 .f32) (x2 : Vec Ideal S40x128 .f32) (x3 : Vec Ideal S1x128 .f32)
  (x4 : Vec Ideal S128x768 .f32) (x5 : Vec Ideal S1x768 .f32) (x6 : Vec Ideal S256x768 .f32) (x7 : Vec Ideal S1x768 .f32)
  (x8 : Vec Ideal S256x1 .f32) (x9 : Vec Ideal S1x1 .f32)

/-! ### The stages of the body, each read at an entry -/

/-- The old hidden block passes through unchanged. -/
theorem pay3_apply (i : S1024x256.Idx) : k0_pay3 (F := Ideal) x1 i = x1 i := by
  unfold k0_pay3
  rw [shapeCast_self]

/-- Entry `(r, g)` of the input-gate block: the projection of row `r`, then the input gates' affine map. -/
theorem pay4_apply
    (h2 : ∀ (k : Fin 40) (p : Fin 128), x2 (ix2 k p) = W.Wp p k)
    (h3 : ∀ p : Fin 128, x3 (ix2 (0 : Fin 1) p) = W.bp p)
    (h4 : ∀ (k : Fin 128) (g : Fin 768), x4 (ix2 k g) = W.Wih g k)
    (h5 : ∀ g : Fin 768, x5 (ix2 (0 : Fin 1) g) = W.bih g)
    (r : Fin 1024) (g : Fin 768) :
    k0_pay4 (F := Ideal) x0 x2 x3 x4 x5 (ix2 r g) = Cert.Gru.gateI W (fun k => x0 (ix2 r k)) g := by
  unfold k0_pay4
  rw [addf_apply, mmI_apply, bc768_apply]
  simp only [truncf_apply, shapeCast_self, addf_apply, mmP_apply, bc128_apply, h2, h3, h4, h5]
  rfl

/-- Entry `(r, g)` of the hidden-gate block: the hidden gates' affine map of row `r` of the old state. -/
theorem pay5_apply
    (h6 : ∀ (k : Fin 256) (g : Fin 768), x6 (ix2 k g) = W.Whh g k)
    (h7 : ∀ g : Fin 768, x7 (ix2 (0 : Fin 1) g) = W.bhh g)
    (r : Fin 1024) (g : Fin 768) :
    k0_pay5 (F := Ideal) x1 x6 x7 (ix2 r g) = Cert.Gru.gateH W (fun k => x1 (ix2 r k)) g := by
  unfold k0_pay5
  rw [addf_apply, mmH_apply, bc768_apply]
  simp only [truncf_apply, shapeCast_self, pay3_apply, h6, h7]
  rfl

/-- Entry `(r, j)` of the candidate third of the input gates. -/
theorem pay6_apply
    (h2 : ∀ (k : Fin 40) (p : Fin 128), x2 (ix2 k p) = W.Wp p k)
    (h3 : ∀ p : Fin 128, x3 (ix2 (0 : Fin 1) p) = W.bp p)
    (h4 : ∀ (k : Fin 128) (g : Fin 768), x4 (ix2 k g) = W.Wih g k)
    (h5 : ∀ g : Fin 768, x5 (ix2 (0 : Fin 1) g) = W.bih g)
    (r : Fin 1024) (j : Fin 256) :
    k0_pay6 (F := Ideal) x0 x2 x3 x4 x5 (ix2 r j) = Cert.Gru.gateI W (fun k => x0 (ix2 r k)) (Cert.Gru.hi j) := by
  unfold k0_pay6
  rw [sliceHi_apply, pay4_apply W x0 x2 x3 x4 x5 h2 h3 h4 h5]

/-- Entry `(r, j)` of the candidate third of the hidden gates. -/
theorem pay7_apply
    (h6 : ∀ (k : Fin 256) (g : Fin 768), x6 (ix2 k g) = W.Whh g k)
    (h7 : ∀ g : Fin 768, x7 (ix2 (0 : Fin 1) g) = W.bhh g)
    (r : Fin 1024) (j : Fin 256) :
    k0_pay7 (F := Ideal) x1 x6 x7 (ix2 r j) = Cert.Gru.gateH W (fun k => x1 (ix2 r k)) (Cert.Gru.hi j) := by
  unfold k0_pay7
  rw [sliceHi_apply, pay5_apply W x1 x6 x7 h6 h7]

/-- Entry `(r, j)` of the reset gate: the logistic of the two gate rows' reset thirds added. -/
theorem pay8_apply
    (h2 : ∀ (k : Fin 40) (p : Fin 128), x2 (ix2 k p) = W.Wp p k)
    (h3 : ∀ p : Fin 128, x3 (ix2 (0 : Fin 1) p) = W.bp p)
    (h4 : ∀ (k : Fin 128) (g : Fin 768), x4 (ix2 k g) = W.Wih g k)
    (h5 : ∀ g : Fin 768, x5 (ix2 (0 : Fin 1) g) = W.bih g)
    (h6 : ∀ (k : Fin 256) (g : Fin 768), x6 (ix2 k g) = W.Whh g k)
    (h7 : ∀ g : Fin 768, x7 (ix2 (0 : Fin 1) g) = W.bhh g)
    (r : Fin 1024) (j : Fin 256) :
    k0_pay8 (F := Ideal) x0 x2 x3 x1 x4 x5 x6 x7 (ix2 r j)
      = Cert.Gru.sigm (Cert.Gru.gateI W (fun k => x0 (ix2 r k)) (Cert.Gru.lo j) + Cert.Gru.gateH W (fun k => x1 (ix2 r k)) (Cert.Gru.lo j)) := by
  unfold k0_pay8
  show Ideal.logistic (addf (F := Ideal) _ _ (ix2 r j)) = _
  rw [Cert.Gru.logistic_eq, addf_apply, sliceLo_apply, sliceLo_apply,
    pay4_apply W x0 x2 x3 x4 x5 h2 h3 h4 h5, pay5_apply W x1 x6 x7 h6 h7]

/-- Entry `(r, j)` of the update gate's argument: the two gate rows' update thirds added. -/
theorem pay9_apply
    (h2 : ∀ (k : Fin 40) (p : Fin 128), x2 (ix2 k p) = W.Wp p k)
    (h3 : ∀ p : Fin 128, x3 (ix2 (0 : Fin 1) p) = W.bp p)
    (h4 : ∀ (k : Fin 128) (g : Fin 768), x4 (ix2 k g) = W.Wih g k)
    (h5 : ∀ g : Fin 768, x5 (ix2 (0 : Fin 1) g) = W.bih g)
    (h6 : ∀ (k : Fin 256) (g : Fin 768), x6 (ix2 k g) = W.Whh g k)
    (h7 : ∀ g : Fin 768, x7 (ix2 (0 : Fin 1) g) = W.bhh g)
    (r : Fin 1024) (j : Fin 256) :
    k0_pay9 (F := Ideal) x0 x2 x3 x1 x4 x5 x6 x7 (ix2 r j)
      = Cert.Gru.gateI W (fun k => x0 (ix2 r k)) (Cert.Gru.mid j) + Cert.Gru.gateH W (fun k => x1 (ix2 r k)) (Cert.Gru.mid j) := by
  unfold k0_pay9
  rw [addf_apply, sliceMid_apply, sliceMid_apply,
    pay4_apply W x0 x2 x3 x4 x5 h2 h3 h4 h5, pay5_apply W x1 x6 x7 h6 h7]

/-- The gate arithmetic at an entry, over any five blocks: `(1 − σ u) · tanh (a + s · b) + σ u · h`. -/
theorem pay1_apply (v12 v33 v36 v38 v39 : FVec Ideal S1024x256 .f32) (i : S1024x256.Idx) :
    k0_pay1 (F := Ideal) v12 v33 v36 v38 v39 i
      = (Cert.Gru.one - Cert.Gru.sigm (v39 i)) * Ideal.tanh (v33 i + v38 i * v36 i) + Cert.Gru.sigm (v39 i) * v12 i := by
  unfold k0_pay1
  show (Cert.Gru.one - Ideal.logistic (v39 i)) * Ideal.tanh (v33 i + v38 i * v36 i) + Ideal.logistic (v39 i) * v12 i = _
  rw [Cert.Gru.logistic_eq]

/-- Entry `(r, j)` of the block of new hidden states the body stores. -/
theorem hidden_block
    (h2 : ∀ (k : Fin 40) (p : Fin 128), x2 (ix2 k p) = W.Wp p k)
    (h3 : ∀ p : Fin 128, x3 (ix2 (0 : Fin 1) p) = W.bp p)
    (h4 : ∀ (k : Fin 128) (g : Fin 768), x4 (ix2 k g) = W.Wih g k)
    (h5 : ∀ g : Fin 768, x5 (ix2 (0 : Fin 1) g) = W.bih g)
    (h6 : ∀ (k : Fin 256) (g : Fin 768), x6 (ix2 k g) = W.Whh g k)
    (h7 : ∀ g : Fin 768, x7 (ix2 (0 : Fin 1) g) = W.bhh g)
    (r : Fin 1024) (j : Fin 256) :
    k0_pay1 (F := Ideal) (k0_pay3 x1) (k0_pay6 x0 x2 x3 x4 x5) (k0_pay7 x1 x6 x7) (k0_pay8 x0 x2 x3 x1 x4 x5 x6 x7) (k0_pay9 x0 x2 x3 x1 x4 x5 x6 x7) (ix2 r j)
      = Cert.Gru.rowH W (fun k => x0 (ix2 r k)) (fun k => x1 (ix2 r k)) j := by
  rw [pay1_apply, pay3_apply, pay6_apply W x0 x2 x3 x4 x5 h2 h3 h4 h5, pay7_apply W x1 x6 x7 h6 h7,
    pay8_apply W x0 x1 x2 x3 x4 x5 x6 x7 h2 h3 h4 h5 h6 h7, pay9_apply W x0 x1 x2 x3 x4 x5 x6 x7 h2 h3 h4 h5 h6 h7]
  rfl

/-- Entry `(r, 0)` of the block of predictions the body stores. -/
theorem pred_block
    (h2 : ∀ (k : Fin 40) (p : Fin 128), x2 (ix2 k p) = W.Wp p k)
    (h3 : ∀ p : Fin 128, x3 (ix2 (0 : Fin 1) p) = W.bp p)
    (h4 : ∀ (k : Fin 128) (g : Fin 768), x4 (ix2 k g) = W.Wih g k)
    (h5 : ∀ g : Fin 768, x5 (ix2 (0 : Fin 1) g) = W.bih g)
    (h6 : ∀ (k : Fin 256) (g : Fin 768), x6 (ix2 k g) = W.Whh g k)
    (h7 : ∀ g : Fin 768, x7 (ix2 (0 : Fin 1) g) = W.bhh g)
    (h8 : ∀ k : Fin 256, x8 (ix2 k (0 : Fin 1)) = W.Whd k)
    (h9 : x9 (ix2 (0 : Fin 1) (0 : Fin 1)) = W.bhd)
    (r : Fin 1024) :
    k0_pay2 (F := Ideal) (k0_pay3 x1) (k0_pay6 x0 x2 x3 x4 x5) (k0_pay7 x1 x6 x7) (k0_pay8 x0 x2 x3 x1 x4 x5 x6 x7) (k0_pay9 x0 x2 x3 x1 x4 x5 x6 x7) x8 x9 (ix2 r (0 : Fin 1))
      = Cert.Gru.rowP W (fun k => x0 (ix2 r k)) (fun k => x1 (ix2 r k)) := by
  unfold k0_pay2
  rw [addf_apply, mmD_apply, bc1_apply]
  simp only [truncf_apply, shapeCast_self, h8, h9,
    hidden_block W x0 x1 x2 x3 x4 x5 x6 x7 h2 h3 h4 h5 h6 h7]
  rfl

end Cert.KernelIdeal.RowValue

end
-- ==== Proof.KernelArrays.lean ====
/-
  From blocks to arrays. At grid point t the body stores, into the block of new hidden states, the row function of
  the step at rows 1024·t … 1024·t + 1023 of the batch, and likewise into the block of predictions; the 128 blocks
  tile the two result arrays, so after the region they hold the row functions at every row. The two host
  operations after the region only add a unit axis to each.
-/
import proofs.«167147_j89644557402351_1_alg».proof.Proof.Gen.KernelIdeal.Frame
import proofs.«167147_j89644557402351_1_alg».proof.Proof.Spec
import proofs.«167147_j89644557402351_1_alg».proof.Proof.KernelHost
import proofs.«167147_j89644557402351_1_alg».proof.Proof.KernelRow
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ArrValue

open Cert.KernelIdeal Cert.KernelIdeal.Gen

variable (m : (ℓ : Loc nD τ sig) → Buf (Elt Ideal) ℓ) (ρ : Dev nD → PrngReg)

open Cert.KernelIdeal.HostValue

theorem hz : (![0, 0] : Fin 2 → Nat) = fun _ => 0 := funext fun a => by fin_cases a <;> rfl

/-- The step's parameters, read off the argument arrays of core `c`. -/
abbrev Wm (c : Dev nD) : Cert.Gru.Weights :=
  Cert.Gru.weightsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The new hidden state `[131072, 256]` of core `c`'s arguments. -/
abbrev H2 (c : Dev nD) : S131072x256.Idx → EReal := Cert.Gru.hidden2 (Wm m c) (m ((c : Thread nD τ).loc main_arg0)) (m ((c : Thread nD τ).loc main_arg1))
/-- The prediction `[131072, 1]` of core `c`'s arguments. -/
abbrev P2 (c : Dev nD) : S131072x1.Idx → EReal := Cert.Gru.pred2 (Wm m c) (m ((c : Thread nD τ).loc main_arg0)) (m ((c : Thread nD τ).loc main_arg1))

/-- Row `r` of the block of `x2d` at point `t` is row `1024·t + r` of `x_step`. -/
theorem xrow_eq (c : Dev nD) (t : Fin cfg0.N) (r : Fin 1024) :
    (fun k : Fin 40 => (iblk m c 0 t : Vec Ideal S1024x40 .f32) (ix2 r k)) = Cert.Gru.xRow (m ((c : Thread nD τ).loc main_arg0)) (rowOf t r) :=
  funext fun k => (iblk0_at m c t r k).trans (v0_at m c (rowOf t r) k)

/-- Row `r` of the block of `h2d` at point `t` is row `1024·t + r` of `hidden_in`. -/
theorem hrow_eq (c : Dev nD) (t : Fin cfg0.N) (r : Fin 1024) :
    (fun k : Fin 256 => (iblk m c 1 t : Vec Ideal S1024x256 .f32) (ix2 r k)) = Cert.Gru.hRow (m ((c : Thread nD τ).loc main_arg1)) (rowOf t r) :=
  funext fun k => (iblk1_at m c t r k).trans (v1_at m c (rowOf t r) k)

/-- What point `t` leaves in the hidden-state block: the row function at the block's rows. -/
theorem out11_eq (c : Dev nD) (t : Fin cfg0.N) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t)
      = fun y : S1024x256.Idx => H2 m c (ix2 (rowOf t (y 0)) (y 1)) := by
  unfold out0_11
  rw [View.canon_unit_zero hz]
  simp only [View.ld_unit_zero (S := S1024x40) hz, View.ld_unit_zero (S := S1024x256) hz, View.ld_unit_zero (S := S40x128) hz,
    View.ld_unit_zero (S := S1x128) hz, View.ld_unit_zero (S := S128x768) hz, View.ld_unit_zero (S := S1x768) hz,
    View.ld_unit_zero (S := S256x768) hz]
  funext y
  obtain ⟨r, q, rfl⟩ : ∃ (r : Fin 1024) (q : Fin 256), y = ix2 r q := ⟨y 0, y 1, eq_ix2 y⟩
  refine (Cert.KernelIdeal.RowValue.hidden_block (Wm m c) (iblk m c 0 t) (iblk m c 1 t) (iblk m c 2 t) (iblk m c 3 t) (iblk m c 4 t) (iblk m c 5 t) (iblk m c 6 t) (iblk m c 7 t)
    (fun k p => (iblk2_at m c t k p).trans (v2_at m c k p))
    (fun p => (iblk3_at m c t 0 p).trans (v3_at m c p))
    (fun k g => (iblk4_at m c t k g).trans (v4_at m c k g))
    (fun g => (iblk5_at m c t 0 g).trans (v5_at m c g))
    (fun k g => (iblk6_at m c t k g).trans (v6_at m c k g))
    (fun g => (iblk7_at m c t 0 g).trans (v7_at m c g)) r q).trans ?_
  show Cert.Gru.rowH (Wm m c) _ _ q = Cert.Gru.rowH (Wm m c) _ _ q
  rw [xrow_eq, hrow_eq]

/-- What point `t` leaves in the prediction block. -/
theorem out10_eq (c : Dev nD) (t : Fin cfg0.N) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t)
      = fun y : S1024x1.Idx => P2 m c (ix2 (rowOf t (y 0)) (y 1)) := by
  unfold out0_10
  rw [View.canon_unit_zero hz]
  simp only [View.ld_unit_zero (S := S1024x40) hz, View.ld_unit_zero (S := S1024x256) hz, View.ld_unit_zero (S := S40x128) hz,
    View.ld_unit_zero (S := S1x128) hz, View.ld_unit_zero (S := S128x768) hz, View.ld_unit_zero (S := S1x768) hz,
    View.ld_unit_zero (S := S256x768) hz, View.ld_unit_zero (S := S256x1) hz, View.ld_unit_zero (S := S1x1) hz]
  funext y
  obtain ⟨r, q, rfl⟩ : ∃ (r : Fin 1024) (q : Fin 1), y = ix2 r q := ⟨y 0, y 1, eq_ix2 y⟩
  obtain rfl : q = 0 := Subsingleton.elim _ _
  refine (Cert.KernelIdeal.RowValue.pred_block (Wm m c) (iblk m c 0 t) (iblk m c 1 t) (iblk m c 2 t) (iblk m c 3 t) (iblk m c 4 t) (iblk m c 5 t) (iblk m c 6 t) (iblk m c 7 t) (iblk m c 8 t) (iblk m c 9 t)
    (fun k p => (iblk2_at m c t k p).trans (v2_at m c k p))
    (fun p => (iblk3_at m c t 0 p).trans (v3_at m c p))
    (fun k g => (iblk4_at m c t k g).trans (v4_at m c k g))
    (fun g => (iblk5_at m c t 0 g).trans (v5_at m c g))
    (fun k g => (iblk6_at m c t k g).trans (v6_at m c k g))
    (fun g => (iblk7_at m c t 0 g).trans (v7_at m c g))
    (fun k => (iblk8_at m c t k 0).trans (v8_at m c k))
    ((iblk9_at m c t 0 0).trans (v9_at m c)) r).trans ?_
  show Cert.Gru.rowP (Wm m c) _ _ = Cert.Gru.rowP (Wm m c) _ _
  rw [xrow_eq, hrow_eq]

/-- WHAT POINT `t` WRITES BACK to the hidden-state array is block `t` of `H2`. -/
theorem flushed11_eq (c : Dev nD) (t : Fin cfg0.N) :
    (dats m 0 c).flushed 11 t = ((cfg0.win 11).blk t).view.read (Elt Ideal) (H2 m c) := by
  show (cfg0.win 11).cut (grid0.coords t) ((dats m 0 c).after 11 t) = _
  rw [after0_11, out11_eq]
  funext j
  show H2 m c (ix2 (rowOf t (j 0)) (j 1)) = H2 m c (((cfg0.win 11).blk t).view.emb j)
  congr 1
  funext a
  apply Fin.ext
  match a with
  | ⟨0, _⟩ => show t.val * 1024 + (j 0).val = win0_11.index t (0 : Fin 2) * 1024 + 1 * (j 0).val; rw [(idx_rows t).2.2.2.2.2.2.1]; omega
  | ⟨1, _⟩ => show (j 1).val = win0_11.index t (1 : Fin 2) * 256 + 1 * (j 1).val; rw [(idx_rows t).2.2.2.2.2.2.2]; omega

/-- WHAT POINT `t` WRITES BACK to the prediction array is block `t` of `P2`. -/
theorem flushed10_eq (c : Dev nD) (t : Fin cfg0.N) :
    (dats m 0 c).flushed 10 t = ((cfg0.win 10).blk t).view.read (Elt Ideal) (P2 m c) := by
  show (cfg0.win 10).cut (grid0.coords t) ((dats m 0 c).after 10 t) = _
  rw [after0_10, out10_eq]
  funext j
  show P2 m c (ix2 (rowOf t (j 0)) (j 1)) = P2 m c (((cfg0.win 10).blk t).view.emb j)
  congr 1
  funext a
  apply Fin.ext
  match a with
  | ⟨0, _⟩ => show t.val * 1024 + (j 0).val = win0_10.index t (0 : Fin 2) * 1024 + 1 * (j 0).val; rw [(idx_rows t).2.2.2.2.1]; omega
  | ⟨1, _⟩ => show (j 1).val = win0_10.index t (1 : Fin 2) * 1 + 1 * (j 1).val; rw [(idx_rows t).2.2.2.2.2.1]; omega

/-- The point whose block holds row `b`: `b / 1024`. -/
def pointOf (b : Fin 131072) : Fin cfg0.N := ⟨b.val / 1024, by rw [show cfg0.N = 128 from N_0]; have := b.isLt; omega⟩

/-- THE HIDDEN-STATE ARRAY after the region: the 128 blocks of 1024 rows tile it. -/
theorem final11 (c : Dev nD) : (dats m 0 c).arrAt 11 cfg0.N = H2 m c :=
  (dats m 0 c).arrAt_eq_of_cover 11 (H2 m c) (fun t _ => flushed11_eq m c t) fun i =>
    ⟨pointOf (i 0), flush0_11 _, by
      show i ∈ ((View.whole main_v10_1).slice (win0_11.rect (pointOf (i 0)))).set
      rw [View.set_slice_whole, Rect.mem_set_unit]
      intro a
      have h0 : (i 0 : Nat) < 131072 := (i 0).isLt
      have h1 : (i 1 : Nat) < 256 := (i 1).isLt
      have hp : (pointOf (i 0)).val = (i 0 : Nat) / 1024 := rfl
      match a with
      | ⟨0, _⟩ => show win0_11.index (pointOf (i 0)) (0 : Fin 2) * 1024 ≤ (i 0 : Nat) ∧ (i 0 : Nat) < win0_11.index (pointOf (i 0)) (0 : Fin 2) * 1024 + 1024
                  rw [(idx_rows (pointOf (i 0))).2.2.2.2.2.2.1, hp]; omega
      | ⟨1, _⟩ => show win0_11.index (pointOf (i 0)) (1 : Fin 2) * 256 ≤ (i 1 : Nat) ∧ (i 1 : Nat) < win0_11.index (pointOf (i 0)) (1 : Fin 2) * 256 + 256
                  rw [(idx_rows (pointOf (i 0))).2.2.2.2.2.2.2]; omega⟩

/-- THE PREDICTION ARRAY after the region. -/
theorem final10 (c : Dev nD) : (dats m 0 c).arrAt 10 cfg0.N = P2 m c :=
  (dats m 0 c).arrAt_eq_of_cover 10 (P2 m c) (fun t _ => flushed10_eq m c t) fun i =>
    ⟨pointOf (i 0), flush0_10 _, by
      show i ∈ ((View.whole main_v10_0).slice (win0_10.rect (pointOf (i 0)))).set
      rw [View.set_slice_whole, Rect.mem_set_unit]
      intro a
      have h0 : (i 0 : Nat) < 131072 := (i 0).isLt
      have h1 : (i 1 : Nat) < 1 := (i 1).isLt
      have hp : (pointOf (i 0)).val = (i 0 : Nat) / 1024 := rfl
      match a with
      | ⟨0, _⟩ => show win0_10.index (pointOf (i 0)) (0 : Fin 2) * 1024 ≤ (i 0 : Nat) ∧ (i 0 : Nat) < win0_10.index (pointOf (i 0)) (0 : Fin 2) * 1024 + 1024
                  rw [(idx_rows (pointOf (i 0))).2.2.2.2.1, hp]; omega
      | ⟨1, _⟩ => show win0_10.index (pointOf (i 0)) (1 : Fin 2) * 1 ≤ (i 1 : Nat) ∧ (i 1 : Nat) < win0_10.index (pointOf (i 0)) (1 : Fin 2) * 1 + 1
                  rw [(idx_rows (pointOf (i 0))).2.2.2.2.2.1]; omega⟩

end Cert.KernelIdeal.ArrValue

end
-- ==== Proof.KernelRun.lean ====
/-
  The kernel program's run, read: after the region the two result arrays hold the row functions at every row; the
  two host operations after it give each a unit axis (the prediction `[131072, 1] → [131072, 1, 1]`, the hidden state
  `[131072, 256] → [1, 131072, 256]`), which moves no entry. So the program ends with its two results at the
  specification's arrays of its arguments, the arguments unchanged.
-/
import proofs.«167147_j89644557402351_1_alg».proof.Proof.Gen.KernelIdeal.Frame
import proofs.«167147_j89644557402351_1_alg».proof.Proof.Spec
import proofs.«167147_j89644557402351_1_alg».proof.Proof.KernelArrays
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen

variable (m : (ℓ : Loc nD τ sig) → Buf (Elt Ideal) ℓ) (ρ : Dev nD → PrngReg)

open Cert.KernelIdeal.HostValue Cert.KernelIdeal.ArrValue

/-- The first result: the prediction with its unit axis added. -/
theorem tail_pred (c : Dev nD) :
    Pipeline.afterTail₀ cfgs (dats m) 0 (V0 m) [hostOps1] c main_v11 = Cert.Gru.pred3 (Wm m c) (m ((c : Thread nD τ).loc main_arg0)) (m ((c : Thread nD τ).loc main_arg1)) := by
  unfold Pipeline.afterTail₀
  show StableHlo.after hostOps1 _ (Proc.devRef .tc main_v11) = _
  after_results
  rw [show Pipeline.withArrays (cfgs 0).spec c (V0 m c) (fun w => (dats m 0 c).arrAt w (cfgs 0).N) (Proc.devRef .tc main_v10_0) = P2 m c from
      (Pipeline.withArrays_arr spec0 launch0.win.arr_inj c _ _ 10).trans (final10 m c)]
  funext i
  refine (broadcastInDim_apply _ bcast_S131072x1_S131072x1x1_0_2 (P2 m c) i (ix2 (i 0) (0 : Fin 1)) (fun a => match a with
    | ⟨0, _⟩ => by show (i 0).val = if (131072 : Nat) = 1 then 0 else (i 0).val; rw [if_neg (by decide)]
    | ⟨1, _⟩ => by show 0 = if (1 : Nat) = 1 then 0 else (i 2).val; rw [if_pos rfl])).trans ?_
  rfl

/-- The second result: the new hidden state with its unit axis added. -/
theorem tail_hidden (c : Dev nD) :
    Pipeline.afterTail₀ cfgs (dats m) 0 (V0 m) [hostOps1] c main_v12 = Cert.Gru.hidden3 (Wm m c) (m ((c : Thread nD τ).loc main_arg0)) (m ((c : Thread nD τ).loc main_arg1)) := by
  unfold Pipeline.afterTail₀
  show StableHlo.after hostOps1 _ (Proc.devRef .tc main_v12) = _
  after_results
  rw [show Pipeline.withArrays (cfgs 0).spec c (V0 m c) (fun w => (dats m 0 c).arrAt w (cfgs 0).N) (Proc.devRef .tc main_v10_1) = H2 m c from
      (Pipeline.withArrays_arr spec0 launch0.win.arr_inj c _ _ 11).trans (final11 m c)]
  funext i
  refine (broadcastInDim_apply _ bcast_S131072x256_S1x131072x256_1_2 (H2 m c) i (ix2 (i 1) (i 2)) (fun a => match a with
    | ⟨0, _⟩ => by show (i 1).val = if (131072 : Nat) = 1 then 0 else (i 1).val; rw [if_neg (by decide)]
    | ⟨1, _⟩ => by show (i 2).val = if (256 : Nat) = 1 then 0 else (i 2).val; rw [if_neg (by decide)])).trans ?_
  rfl

/-- Every weakly fair execution of the kernel program ends with the two results at the specification's arrays of the
    arguments, and the arguments as they were. -/
theorem run : θ_run defs (onTc (τ := τ) (main (F := Ideal))) ⟨m, fun _ => 0, ρ⟩ (fun r => ∀ c : Dev nD,
      r.2.mem ((c.tc : Thread nD τ).loc main_v11) = Cert.Gru.pred3 (Wm m c) (m ((c : Thread nD τ).loc main_arg0)) (m ((c : Thread nD τ).loc main_arg1))
      ∧ r.2.mem ((c.tc : Thread nD τ).loc main_v12) = Cert.Gru.hidden3 (Wm m c) (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(((h c).2 main_v11 (Pipeline.mem_restRefs_of main_v11 (by decide) (by decide))).trans (tail_pred m c)),
      (((h c).2 main_v12 (Pipeline.mem_restRefs_of main_v12 (by decide) (by decide))).trans (tail_hidden m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩) (run_main m ρ)

end Cert.KernelIdeal.RunValue

end
-- ==== Proof.lean ====
/-
  The kernel computes one GRU step with an input projection and a scalar head for 131072 independent rows, 1024 rows
  per grid point: xp = x·W_projᵀ + b_proj, gi = xp·W_ihᵀ + b_ih, gh = h·W_hhᵀ + b_hh, r = σ(gi_r + gh_r),
  z = σ(gi_z + gh_z), n = tanh(gi_n + r·gh_n), h' = (1 − z)·n + z·h, pred = h'·W_headᵀ + b_head. Read over the
  extended reals the narrowing of the matrix products' operands is the identity, a matrix product into a zero
  accumulator is the plain sum over the contracted index, and the one-operation logistic is the quotient
  1 / (1 + e^(−x)) the reference spells out; the transposes and one-row biases made before the region and the unit axes
  added after it move entries without changing them. So both programs end with, at every row b, the same row
  function of row b of the two batch inputs and of the parameters (Proof/Spec.lean): the reference by reading its
  operations one at a time (Proof/RefValue.lean), the kernel by reading the body's block at an entry
  (Proof/KernelRow.lean), the blocks' rows as rows of the arguments (Proof/KernelHost.lean), the 128 blocks as a
  tiling of the result arrays (Proof/KernelArrays.lean) and the operations after the region (Proof/KernelRun.lean).
  No sum is reordered and no product distributed, so the inputs' finiteness is not used.
  The three frames: the two kernel programs' are the generated ones; the reference's is its run with the results dropped.
  The idealization rewrote no operation, so there is nothing to preserve.
-/
import proofs.«167147_j89644557402351_1_alg».proof.Defs
import proofs.«167147_j89644557402351_1_alg».proof.Proof.Gen.Kernel
import proofs.«167147_j89644557402351_1_alg».proof.Proof.Gen.Kernel.Skeleton
import proofs.«167147_j89644557402351_1_alg».proof.Proof.Gen.Kernel.Launch
import proofs.«167147_j89644557402351_1_alg».proof.Proof.Gen.Kernel.Points
import proofs.«167147_j89644557402351_1_alg».proof.Proof.Gen.Kernel.Frame
import proofs.«167147_j89644557402351_1_alg».proof.Proof.Gen.KernelIdeal
import proofs.«167147_j89644557402351_1_alg».proof.Proof.Gen.KernelIdeal.Skeleton
import proofs.«167147_j89644557402351_1_alg».proof.Proof.Gen.KernelIdeal.Launch
import proofs.«167147_j89644557402351_1_alg».proof.Proof.Gen.KernelIdeal.Points
import proofs.«167147_j89644557402351_1_alg».proof.Proof.Gen.KernelIdeal.Frame
import proofs.«167147_j89644557402351_1_alg».proof.Proof.Gen.ReferenceIdeal
import proofs.«167147_j89644557402351_1_alg».proof.Proof.Gen.ReferenceIdeal.Run
import proofs.«167147_j89644557402351_1_alg».proof.Proof.Gen.ReferenceIdeal.Read
import proofs.«167147_j89644557402351_1_alg».proof.Proof.Gen.Pre_finite_inputs
import proofs.«167147_j89644557402351_1_alg».proof.Proof.RefValue
import proofs.«167147_j89644557402351_1_alg».proof.Proof.KernelRun
import Idealize.ShloMosaic.Adequacy
import Idealize.ShloMosaic.Init

noncomputable section

namespace Cert.Proof

open Idealize.ShloMosaic Idealize.SL.Sem

/-- From memories that agree on the ten arguments both idealized programs end with the prediction and the new hidden
    state at the specification's arrays of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.RunValue.run m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9⟩ := hagree c
  refine ⟨(h c).1.trans ?_, (h c).2.1.trans ?_, (h c).2.2⟩
  · rw [Cert.ReferenceIdeal.Read.val_main_v46_eq, Cert.ReferenceIdeal.RefValue.pred_eq, e0, e1, e2, e3, e4, e5, e6, e7, e8, e9]
  · rw [Cert.ReferenceIdeal.Read.val_main_v47_eq, Cert.ReferenceIdeal.RefValue.hidden_eq _ _ _ _ _ _ _ _ (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)), e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
